-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x82 : Shape := ⟨2, ![1000000, 82]⟩
abbrev S1000000 : Shape := ⟨1, ![1000000]⟩
abbrev S1x82 : Shape := ⟨2, ![1, 82]⟩
abbrev S_ : Shape := ⟨0, ![]⟩
abbrev S1000000x1 : Shape := ⟨2, ![1000000, 1]⟩
abbrev S256 : Shape := ⟨1, ![256]⟩
abbrev S1x256 : Shape := ⟨2, ![1, 256]⟩
abbrev S1000000x256 : Shape := ⟨2, ![1000000, 256]⟩

class Facts : Prop where
  bcast_S_S1000000x82 : S_.BroadcastsInDim S1000000x82 (![] : Fin 0 → Fin S1000000x82.rank)
  reducesTo_S1000000x82_S_d0_1 : S1000000x82.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S1x82 : S_.BroadcastsInDim S1x82 (![] : Fin 0 → Fin S1x82.rank)
  reducesTo_S1x82_S_d0_1 : S1x82.ReducesTo [0, 1] S_
  bcast_S1000000_S1000000x1_0 : S1000000.BroadcastsInDim S1000000x1 (![0] : Fin 1 → Fin S1000000x1.rank)
  bcast_S256_S1x256_1 : S256.BroadcastsInDim S1x256 (![1] : Fin 1 → Fin S1x256.rank)
  bcast_S1000000x1_S1000000x256_0_1 : S1000000x1.BroadcastsInDim S1000000x256 (![0, 1] : Fin 2 → Fin S1000000x256.rank)
  bcast_S1x256_S1000000x256_0_1 : S1x256.BroadcastsInDim S1000000x256 (![0, 1] : Fin 2 → Fin S1000000x256.rank)
  natLt_1_32 : 1 < 32
  reducesTo_S1000000x256_S256_d0 : S1000000x256.ReducesTo [0] S256
  bcast_S_S256 : S_.BroadcastsInDim S256 (![] : Fin 0 → Fin S256.rank)
  reducesTo_S256_S_d0 : S256.ReducesTo [0] S_

variable [Facts]

def fn_part1 {F : FTy → Type} [FloatOps F] (main_arg3 : FVec F S1x82 .f32) (main_arg4 : IVec S1000000 32) (main_v13 : IVec S_ 1) (main_v16 : IVec S1x82 1) : IVec S_ 1 :=
  let main_c_5 : IVec S_ 1 := constantI S_ 1 1#1
  let main_v17 : IVec S_ 1 := (fun x v => Host.reduce IntOp.andi x v reducesTo_S1x82_S_d0_1 h_S_) main_v16 main_c_5
  let main_v18 : IVec S_ 1 := andi main_v13 main_v17
  let main_cst_6 : FVec F S_ .f32 := constant S_ .f32 0x00000000#32
  let main_v19 : FVec F S1x82 .f32 := broadcastInDim S1x82 ![] bcast_S_S1x82 main_cst_6
  let main_v20 : IVec S1x82 1 := cmpf .ogt main_arg3 main_v19
  let main_c_7 : IVec S_ 1 := constantI S_ 1 1#1
  let main_v21 : IVec S_ 1 := (fun x v => Host.reduce IntOp.andi x v reducesTo_S1x82_S_d0_1 h_S_) main_v20 main_c_7
  let main_v22 : IVec S_ 1 := andi main_v18 main_v21
  let main_v23 : IVec S1000000x1 32 := broadcastInDim S1000000x1 ![0] bcast_S1000000_S1000000x1_0 main_arg4
  let main_v24 : IVec S256 32 := iotaInDim S256 32 0
  let main_v25 : IVec S1x256 32 := broadcastInDim S1x256 ![1] bcast_S256_S1x256_1 main_v24
  let main_v26 : IVec S1000000x256 32 := broadcastInDim S1000000x256 ![0, 1] bcast_S1000000x1_S1000000x256_0_1 main_v23
  let main_v27 : IVec S1000000x256 32 := broadcastInDim S1000000x256 ![0, 1] bcast_S1x256_S1000000x256_0_1 main_v25
  let main_v28 : IVec S1000000x256 1 := cmpi .eq main_v26 main_v27
  let main_v29 : IVec S1000000x256 32 := (extui 32 · natLt_1_32) main_v28
  let main_c_8 : IVec S_ 32 := constantI S_ 32 0#32
  let main_v30 : IVec S256 32 := (fun x v => Host.reduce IntOp.addi x v reducesTo_S1000000x256_S256_d0 h_S_) main_v29 main_c_8
  let main_c_9 : IVec S_ 32 := constantI S_ 32 0#32
  let main_v31 : IVec S256 32 := broadcastInDim S256 ![] bcast_S_S256 main_c_9
  let main_v32 : IVec S256 1 := cmpi .sgt main_v30 main_v31
  let main_c_10 : IVec S_ 1 := constantI S_ 1 1#1
  let main_v33 : IVec S_ 1 := (fun x v => Host.reduce IntOp.andi x v reducesTo_S256_S_d0 h_S_) main_v32 main_c_10
  let main_v34 : IVec S_ 1 := andi main_v22 main_v33
  main_v34

def fn {F : FTy → Type} [FloatOps F] (main_arg0 : FVec F S1000000x82 .f32) (main_arg1 : FVec F S1000000x82 .f32) (main_arg2 : FVec F S1000000 .f32) (main_arg3 : FVec F S1x82 .f32) (main_arg4 : IVec S1000000 32) : IVec S_ 1 :=
  let main_v0 : FVec F S1000000x82 .f32 := Host.absf main_arg0
  let main_cst : FVec F S_ .f32 := constant S_ .f32 0x7F800000#32
  let main_v1 : FVec F S1000000x82 .f32 := broadcastInDim S1000000x82 ![] bcast_S_S1000000x82 main_cst
  let main_v2 : IVec S1000000x82 1 := cmpf .olt main_v0 main_v1
  let main_c : IVec S_ 1 := constantI S_ 1 1#1
  let main_v3 : IVec S_ 1 := (fun x v => Host.reduce IntOp.andi x v reducesTo_S1000000x82_S_d0_1 h_S_) main_v2 main_c
  let main_v4 : FVec F S1000000x82 .f32 := Host.absf main_arg1
  let main_cst_0 : FVec F S_ .f32 := constant S_ .f32 0x7F800000#32
  let main_v5 : FVec F S1000000x82 .f32 := broadcastInDim S1000000x82 ![] bcast_S_S1000000x82 main_cst_0
  let main_v6 : IVec S1000000x82 1 := cmpf .olt main_v4 main_v5
  let main_c_1 : IVec S_ 1 := constantI S_ 1 1#1
  let main_v7 : IVec S_ 1 := (fun x v => Host.reduce IntOp.andi x v reducesTo_S1000000x82_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1x82 .f32 := Host.absf main_arg3
  let main_cst_4 : FVec F S_ .f32 := constant S_ .f32 0x7F800000#32
  let main_v15 : FVec F S1x82 .f32 := broadcastInDim S1x82 ![] bcast_S_S1x82 main_cst_4
  let main_v16 : IVec S1x82 1 := cmpf .olt main_v14 main_v15
  fn_part1 (F := F) main_arg3 main_arg4 main_v13 main_v16
-- ==== Kernel.lean ====
abbrev S1000000x82 : Shape := ⟨2, ![1000000, 82]⟩
abbrev S1000000 : Shape := ⟨1, ![1000000]⟩
abbrev S1x82 : Shape := ⟨2, ![1, 82]⟩
abbrev S82x1 : Shape := ⟨2, ![82, 1]⟩
abbrev S_ : Shape := ⟨0, ![]⟩
abbrev S1x1 : Shape := ⟨2, ![1, 1]⟩
abbrev S125x1x8000 : Shape := ⟨3, ![125, 1, 8000]⟩
abbrev S1000000x1 : Shape := ⟨2, ![1000000, 1]⟩
abbrev S125x6x256 : Shape := ⟨3, ![125, 6, 256]⟩
abbrev S8000x82 : Shape := ⟨2, ![8000, 82]⟩
abbrev S1x1x8000 : Shape := ⟨3, ![1, 1, 8000]⟩
abbrev S8000x1 : Shape := ⟨2, ![8000, 1]⟩
abbrev S1x6x256 : Shape := ⟨3, ![1, 6, 256]⟩
abbrev S1x8000 : Shape := ⟨2, ![1, 8000]⟩
abbrev S8000x256 : Shape := ⟨2, ![8000, 256]⟩
abbrev S6x8000 : Shape := ⟨2, ![6, 8000]⟩
abbrev S6x256 : Shape := ⟨2, ![6, 256]⟩
abbrev S1x256 : Shape := ⟨2, ![1, 256]⟩
abbrev S256 : Shape := ⟨1, ![256]⟩

abbrev nBuf : Space → Nat
  | .hbm => 54
  | .vmem => 14
  | .smem => 0
  | _ => 0

abbrev bufTy : (tb : Table) → Fin (tcTables nBuf tb) → BufTy
  | .hbm, ⟨0, _⟩ => ⟨S1000000x82, .f32⟩
  | .hbm, ⟨1, _⟩ => ⟨S1000000x82, .f32⟩
  | .hbm, ⟨2, _⟩ => ⟨S1000000, .f32⟩
  | .hbm, ⟨3, _⟩ => ⟨S1x82, .f32⟩
  | .hbm, ⟨4, _⟩ => ⟨S1000000, .i32⟩
  | .hbm, ⟨5, _⟩ => ⟨S82x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S125x1x8000, .f32⟩
  | .hbm, ⟨13, _⟩ => ⟨S1000000x1, .i32⟩
  | .hbm, ⟨14, _⟩ => ⟨S125x1x8000, .f32⟩
  | .hbm, ⟨15, _⟩ => ⟨S125x6x256, .f32⟩
  | .hbm, ⟨16, _⟩ => ⟨S1000000x1, .f32⟩
  | .hbm, ⟨17, _⟩ => ⟨S_, .f32⟩
  | .hbm, ⟨18, _⟩ => ⟨S6x256, .f32⟩
  | .hbm, ⟨19, _⟩ => ⟨S1x256, .f32⟩
  | .hbm, ⟨20, _⟩ => ⟨S256, .f32⟩
  | .hbm, ⟨21, _⟩ => ⟨S1x256, .f32⟩
  | .hbm, ⟨22, _⟩ => ⟨S256, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S256, .f32⟩
  | .hbm, ⟨27, _⟩ => ⟨S1x256, .f32⟩
  | .hbm, ⟨28, _⟩ => ⟨S256, .f32⟩
  | .hbm, ⟨29, _⟩ => ⟨S1x256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S8000x82, .f32⟩
  | .local _ .vmem, ⟨1, _⟩ => ⟨S8000x82, .f32⟩
  | .local _ .vmem, ⟨2, _⟩ => ⟨S8000x82, .f32⟩
  | .local _ .vmem, ⟨3, _⟩ => ⟨S8000x82, .f32⟩
  | .local _ .vmem, ⟨4, _⟩ => ⟨S82x1, .f32⟩
  | .local _ .vmem, ⟨5, _⟩ => ⟨S1x1x8000, .f32⟩
  | .local _ .vmem, ⟨6, _⟩ => ⟨S1x1x8000, .f32⟩
  | .local _ .vmem, ⟨7, _⟩ => ⟨S8000x1, .i32⟩
  | .local _ .vmem, ⟨8, _⟩ => ⟨S8000x1, .i32⟩
  | .local _ .vmem, ⟨9, _⟩ => ⟨S1x1, .f32⟩
  | .local _ .vmem, ⟨10, _⟩ => ⟨S1x1x8000, .f32⟩
  | .local _ .vmem, ⟨11, _⟩ => ⟨S1x1x8000, .f32⟩
  | .local _ .vmem, ⟨12, _⟩ => ⟨S1x6x256, .f32⟩
  | .local _ .vmem, ⟨13, _⟩ => ⟨S1x6x256, .f32⟩
  | _, _ => ⟨S1000000x82, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8000x82 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x82 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S82x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x8000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x8000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1x82_S82x1_1_0 : S1x82.Transposes [1, 0] S82x1
  reducesTo_S1x82_S_d0_1 : S1x82.ReducesTo [0, 1] S_
  h_S_ : 0 < S_.numel
  shapeCasts_S_S1x1 : S_.ShapeCasts S1x1
  shapeCasts_S1000000_S125x1x8000 : S1000000.ShapeCasts S125x1x8000
  shapeCasts_S1000000_S1000000x1 : S1000000.ShapeCasts S1000000x1
  inb_S8000x82_S8000x82_0_0 : ∀ a, (![0, 0] : Fin 2 → Nat) a + S8000x82.size a ≤ S8000x82.size a
  h_S8000x82 : 0 < S8000x82.numel
  inb_S82x1_S82x1_0_0 : ∀ a, (![0, 0] : Fin 2 → Nat) a + S82x1.size a ≤ S82x1.size a
  h_S82x1 : 0 < S82x1.numel
  shapeCasts_S82x1_S82x1 : S82x1.ShapeCasts S82x1
  transposes_S8000x1_p1_0_S1x8000 : S8000x1.Transposes [1, 0] S1x8000
  inb_S1x1x8000_S1x1x8000_0_0_0 : ∀ a, (![0, 0, 0] : Fin 3 → Nat) a + S1x1x8000.size a ≤ S1x1x8000.size a
  h_S1x1x8000 : 0 < S1x1x8000.numel
  shapeCasts_S1x1x8000_S1x8000 : S1x1x8000.ShapeCasts S1x8000
  shapeCasts_S1x8000_S1x1x8000 : S1x8000.ShapeCasts S1x1x8000
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  iota_S8000x256_d1_w32 : S8000x256.Iotas .tc 32 [1]
  broadcasts_S8000x1_S8000x256 : S8000x1.Broadcasts S8000x256
  natLt_1_32 : 1 < 32
  bitsLt_bf16_f32 : FTy.bits .bf16 < FTy.bits .f32
  concatenates_S1x8000_S1x8000_S1x8000_S1x8000_S1x8000_S1x8000_S6x8000_d0 : Shape.Concatenates [S1x8000, S1x8000, S1x8000, S1x8000, S1x8000, S1x8000] S6x8000 0
  inb_S1x6x256_S1x6x256_0_0_0 : ∀ a, (![0, 0, 0] : Fin 3 → Nat) a + S1x6x256.size a ≤ S1x6x256.size a
  h_S1x6x256 : 0 < S1x6x256.numel
  shapeCasts_S1x6x256_S6x256 : S1x6x256.ShapeCasts S6x256
  shapeCasts_S6x256_S1x6x256 : S6x256.ShapeCasts S1x6x256
  shapeCasts_S125x1x8000_S1000000x1 : S125x1x8000.ShapeCasts S1000000x1
  reducesTo_S125x6x256_S6x256_d0 : S125x6x256.ReducesTo [0] S6x256
  slices_S6x256_S1x256_0_0 : S6x256.Slices ![0, 0] S1x256
  shapeCasts_S1x256_S256 : S1x256.ShapeCasts S256
  slices_S6x256_S1x256_1_0 : S6x256.Slices ![1, 0] S1x256
  slices_S6x256_S1x256_2_0 : S6x256.Slices ![2, 0] S1x256
  slices_S6x256_S1x256_3_0 : S6x256.Slices ![3, 0] S1x256
  slices_S6x256_S1x256_4_0 : S6x256.Slices ![4, 0] S1x256
  slices_S6x256_S1x256_5_0 : S6x256.Slices ![5, 0] S1x256
  bcast_S_S256 : S_.BroadcastsInDim S256 (![] : Fin 0 → Fin S256.rank)
  reducesTo_S256_S_d0 : S256.ReducesTo [0] S_
  dot_S8000x82_S82x1_S8000x1_1_0_0_1_n_n_wf : DotDims.WF S8000x82 S82x1 S8000x1 [1] [0] [0] [1] [] []
  dot_S6x8000_S8000x256_S6x256_1_0_0_1_n_n_wf : DotDims.WF S6x8000 S8000x256 S6x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x82.size a ≤ S1000000x82.size a
  hwx0_0 : ∀ i : grid0.Coords, EltTy.bits .f32 = 32 ∨ (Rect.block (s := S1000000x82) S8000x82.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x82.size a ≤ S1000000x82.size a
  hwx0_1 : ∀ i : grid0.Coords, EltTy.bits .f32 = 32 ∨ (Rect.block (s := S1000000x82) S8000x82.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S82x1.size a ≤ S82x1.size a
  hwx0_2 : ∀ i : grid0.Coords, EltTy.bits .f32 = 32 ∨ (Rect.block (s := S82x1) S82x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8000.size a ≤ S125x1x8000.size a
  hwx0_3 : ∀ i : grid0.Coords, EltTy.bits .f32 = 32 ∨ (Rect.block (s := S125x1x8000) S1x1x8000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x1.size a ≤ S1000000x1.size a
  hwx0_4 : ∀ i : grid0.Coords, EltTy.bits .i32 = 32 ∨ (Rect.block (s := S1000000x1) S8000x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x8000.size a ≤ S125x1x8000.size a
  hwx0_6 : ∀ i : grid0.Coords, EltTy.bits .f32 = 32 ∨ (Rect.block (s := S125x1x8000) S1x1x8000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x6x256.size a ≤ S125x6x256.size a
  hwx0_7 : ∀ i : grid0.Coords, EltTy.bits .f32 = 32 ∨ (Rect.block (s := S125x6x256) S1x6x256.size (cc0_transform_7 i) (hinb0_7 i)).WholeWords (EltTy.packing .f32)

variable [Facts₀]

def dot_S8000x82_S82x1_S8000x1_1_0_0_1_n_n : DotDims S8000x82 S82x1 S8000x1 where
  lhsContracting := [1]
  rhsContracting := [0]
  lhsNonContracting := [0]
  rhsNonContracting := [1]
  lhsBatch := []
  rhsBatch := []
  wf := dot_S8000x82_S82x1_S8000x1_1_0_0_1_n_n_wf
def dot_S6x8000_S8000x256_S6x256_1_0_0_1_n_n : DotDims S6x8000 S8000x256 S6x256 where
  lhsContracting := [1]
  rhsContracting := [0]
  lhsNonContracting := [0]
  rhsNonContracting := [1]
  lhsBatch := []
  rhsBatch := []
  wf := dot_S6x8000_S8000x256_S6x256_1_0_0_1_n_n_wf

abbrev win0_0 : Pipeline.Window sig grid0 :=
  Pipeline.Window.ofSpec (Memref.whole main_arg0) S8000x82.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x82.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S82x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x8000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S8000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1x1x8000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1x6x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000000x82 : Shape := ⟨2, ![1000000, 82]⟩
abbrev S1000000 : Shape := ⟨1, ![1000000]⟩
abbrev S1x82 : Shape := ⟨2, ![1, 82]⟩
abbrev S82x1 : Shape := ⟨2, ![82, 1]⟩
abbrev S1000000x1 : Shape := ⟨2, ![1000000, 1]⟩
abbrev S_ : Shape := ⟨0, ![]⟩
abbrev S256 : Shape := ⟨1, ![256]⟩

abbrev nBuf : Space → Nat
  | .hbm => 70
  | .vmem => 0
  | .smem => 0
  | _ => 0

abbrev bufTy : (tb : Table) → Fin (tcTables nBuf tb) → BufTy
  | .hbm, ⟨0, _⟩ => ⟨S1000000x82, .f32⟩
  | .hbm, ⟨1, _⟩ => ⟨S1000000x82, .f32⟩
  | .hbm, ⟨2, _⟩ => ⟨S1000000, .f32⟩
  | .hbm, ⟨3, _⟩ => ⟨S1x82, .f32⟩
  | .hbm, ⟨4, _⟩ => ⟨S1000000, .i32⟩
  | .hbm, ⟨5, _⟩ => ⟨S1000000x82, .f32⟩
  | .hbm, ⟨6, _⟩ => ⟨S1000000x82, .f32⟩
  | .hbm, ⟨7, _⟩ => ⟨S82x1, .f32⟩
  | .hbm, ⟨8, _⟩ => ⟨S1000000x1, .f32⟩
  | .hbm, ⟨9, _⟩ => ⟨S1000000x1, .f32⟩
  | .hbm, ⟨10, _⟩ => ⟨S1000000, .f32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S256, .f32⟩
  | .hbm, ⟨15, _⟩ => ⟨S1000000x1, .i32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S1000000x1, .i32⟩
  | .hbm, ⟨20, _⟩ => ⟨S256, .f32⟩
  | .hbm, ⟨21, _⟩ => ⟨S256, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000, .f32⟩
  | .hbm, ⟨31, _⟩ => ⟨S1000000, .f32⟩
  | .hbm, ⟨32, _⟩ => ⟨S_, .f32⟩
  | .hbm, ⟨33, _⟩ => ⟨S256, .f32⟩
  | .hbm, ⟨34, _⟩ => ⟨S1000000x1, .i32⟩
  | .hbm, ⟨35, _⟩ => ⟨S256, .f32⟩
  | .hbm, ⟨36, _⟩ => ⟨S256, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000, .f32⟩
  | .hbm, ⟨46, _⟩ => ⟨S1000000, .f32⟩
  | .hbm, ⟨47, _⟩ => ⟨S1000000, .f32⟩
  | .hbm, ⟨48, _⟩ => ⟨S_, .f32⟩
  | .hbm, ⟨49, _⟩ => ⟨S256, .f32⟩
  | .hbm, ⟨50, _⟩ => ⟨S1000000x1, .i32⟩
  | .hbm, ⟨51, _⟩ => ⟨S256, .f32⟩
  | .hbm, ⟨52, _⟩ => ⟨S1000000, .f32⟩
  | .hbm, ⟨53, _⟩ => ⟨S_, .f32⟩
  | .hbm, ⟨54, _⟩ => ⟨S256, .f32⟩
  | .hbm, ⟨55, _⟩ => ⟨S1000000x1, .i32⟩
  | .hbm, ⟨56, _⟩ => ⟨S256, .f32⟩
  | .hbm, ⟨57, _⟩ => ⟨S1000000, .f32⟩
  | .hbm, ⟨58, _⟩ => ⟨S_, .f32⟩
  | .hbm, ⟨59, _⟩ => ⟨S256, .f32⟩
  | .hbm, ⟨60, _⟩ => ⟨S1000000x1, .i32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S1000000x82, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  transposes_S1x82_S82x1_1_0 : S1x82.Transposes [1, 0] S82x1
  shapeCasts_S1000000x1_S1000000 : S1000000x1.ShapeCasts S1000000
  bcast_S_S1000000 : S_.BroadcastsInDim S1000000 (![] : Fin 0 → Fin S1000000.rank)
  bcast_S_S256 : S_.BroadcastsInDim S256 (![] : Fin 0 → Fin S256.rank)
  bcast_S1000000_S1000000x1_0 : S1000000.BroadcastsInDim S1000000x1 (![0] : Fin 1 → Fin S1000000x1.rank)
  reducesTo_S256_S_d0 : S256.ReducesTo [0] S_
  h_S_ : 0 < S_.numel
  dot_S1000000x82_S82x1_S1000000x1_1_0_0_1_n_n_wf : DotDims.WF S1000000x82 S82x1 S1000000x1 [1] [0] [0] [1] [] []
  scatter_S256_S1000000x1_S1000000_n_0_0_1_wf : ScatterDims.WF S256 S1000000x1 S1000000 [] [0] [0] 1
  gather_S256_S1000000x1_S1000000_n_0_n_n_0_1_1_wf : GatherDims.WF S256 S1000000x1 S1000000 [] [0] [] [0] [] 1 ![1]

variable [Facts₀]

def dot_S1000000x82_S82x1_S1000000x1_1_0_0_1_n_n : DotDims S1000000x82 S82x1 S1000000x1 where
  lhsContracting := [1]
  rhsContracting := [0]
  lhsNonContracting := [0]
  rhsNonContracting := [1]
  lhsBatch := []
  rhsBatch := []
  wf := dot_S1000000x82_S82x1_S1000000x1_1_0_0_1_n_n_wf
def scatter_S256_S1000000x1_S1000000_n_0_0_1 : ScatterDims S256 S1000000x1 S1000000 where
  updateWindowDims := []
  insertedWindowDims := [0]
  scatterDimsToOperandDims := [0]
  indexVectorDim := 1
  wf := scatter_S256_S1000000x1_S1000000_n_0_0_1_wf
def gather_S256_S1000000x1_S1000000_n_0_n_n_0_1_1 : GatherDims S256 S1000000x1 S1000000 where
  offsetDims := []
  collapsedSliceDims := [0]
  operandBatchingDims := []
  startIndicesBatchingDims := []
  startIndexMap := [0]
  indexVectorDim := 1
  sliceSizes := ![1]
  wf := gather_S256_S1000000x1_S1000000_n_0_n_n_0_1_1_wf

class Facts : Prop extends Facts₀ where

variable [Facts]
-- ==== Proof.GroupCorr.lean ====
/-
  Per-group Pearson correlation of a weighted distance against a target, in two arrangements.

  For rows t < 1000000 with feature rows X1 t, X2 t in R^82, a weight row W, a target Y t and a label word mk t, the
  weighted distance of row t is  dist t = sqrt (sum_d (X1 t d - X2 t d)^2 * W d).  For a label g < 256 the rows carrying
  it are  grp g = { t | mk t = g }  and  gsum g v  is the sum of v over them.

  CENTRED form (refTerm): with n = |grp g|, mx = (sum P)/n, my = (sum Y)/n,
      | sum (P - mx)(Y - my) / sqrt (sum (P - mx)^2 * sum (Y - my)^2) |.
  RAW-MOMENT form about a global shift c (kerTerm): with u = P - c and the six sums n, su, sy, suu, syy, suy,
      | (suy - su*sy/n) / sqrt (max (suu - su*su/n) 0 * max (syy - sy*sy/n) 0) |.
  Both results are the mean over the 256 labels (mean256). The raw moments are also met cut into 125 tiles of 8000 rows,
  each tile's share a sum of the quantity times a 0/1 weight (tileMom).

  For real P, Y, c and a non-empty group the two forms are the same extended real: covariance and variance do not
  change under a common shift, the raw-moment variance is a sum of squares (so the clamp at 0 is the identity), and the
  quotient and the root are then taken of equal arguments, whatever they are (a vanishing variance included).
-/
import Idealize.ShloMosaic.PureOps.Ideal
import Idealize.ShloMosaic.Lib.ValueIdx

noncomputable section

open scoped BigOperators

namespace Cert.GroupCorr

open Idealize.ShloMosaic Idealize.ShloMosaic.ValueIdx

/-- The rows that carry label g. -/
def grp (mk : (⟨1, ![1000000]⟩ : Shape).Idx → BitVec 32) (g : Fin 256) : Finset (Fin 1000000) :=
  Finset.univ.filter fun t => mk (ix1 t) = BitVec.ofNat 32 g.val

/-- The sum of v over the rows that carry label g. -/
def gsum (mk : (⟨1, ![1000000]⟩ : Shape).Idx → BitVec 32) (g : Fin 256) (v : Fin 1000000 → EReal) : EReal :=
  ∑ t ∈ grp mk g, v t

/-- The weighted distance of row t: the root of the W-weighted sum of squared differences. -/
def dist (X1 X2 : (⟨2, ![1000000, 82]⟩ : Shape).Idx → EReal) (W : (⟨2, ![1, 82]⟩ : Shape).Idx → EReal)
    (t : Fin 1000000) : EReal :=
  Ideal.sqrt (∑ d : Fin 82, (X1 (ix2 t d) - X2 (ix2 t d)) * (X1 (ix2 t d) - X2 (ix2 t d)) * W (ix2 (0 : Fin 1) d))

/-- The global shift: the root of twice the sum of the weights. -/
def shift (W : (⟨2, ![1, 82]⟩ : Shape).Idx → EReal) : EReal :=
  Ideal.sqrt (Ideal.ofBits .f32 0x40000000#32 * ∑ d : Fin 82, W (ix2 (0 : Fin 1) d))

/-- The centred form of label g's term. -/
def refTerm (P Y : Fin 1000000 → EReal) (mk : (⟨1, ![1000000]⟩ : Shape).Idx → BitVec 32) (g : Fin 256) : EReal :=
  let n := gsum mk g fun _ => 1
  let mx := Ideal.div (gsum mk g P) n
  let my := Ideal.div (gsum mk g Y) n
  let r := Ideal.div (gsum mk g fun t => (P t - mx) * (Y t - my))
    (Ideal.sqrt (gsum mk g (fun t => (P t - mx) * (P t - mx)) * gsum mk g (fun t => (Y t - my) * (Y t - my))))
  max r (-r)

/-- The six quantities whose group sums are the raw moments: 1, u, y, u*u, y*y, u*y. -/
def momVal (u y : EReal) (k : Fin 6) : EReal :=
  match k with
  | 0 => 1
  | 1 => u
  | 2 => y
  | 3 => u * u
  | 4 => y * y
  | 5 => u * y

/-- Row t's six quantities about the shift c. -/
def momRow (P Y : Fin 1000000 → EReal) (c : EReal) (k : Fin 6) (t : Fin 1000000) : EReal :=
  momVal (P t - c) (Y t) k

/-- The raw-moment form from the six moments M 0 … M 5 (count, su, sy, suu, syy, suy). -/
def momTerm (M : Fin 6 → EReal) : EReal :=
  let cov := M 5 - Ideal.div (M 1 * M 2) (M 0)
  let vx := max (M 3 - Ideal.div (M 1 * M 1) (M 0)) 0
  let vy := max (M 4 - Ideal.div (M 2 * M 2) (M 0)) 0
  let r := Ideal.div cov (Ideal.sqrt (vx * vy))
  max r (-r)

/-- The raw-moment form of label g's term, about the shift c. -/
def kerTerm (P Y : Fin 1000000 → EReal) (c : EReal) (mk : (⟨1, ![1000000]⟩ : Shape).Idx → BitVec 32) (g : Fin 256) :
    EReal :=
  momTerm fun k => gsum mk g (momRow P Y c k)

/-- The weight a label word w gives label g: 1 when it is g, else 0. -/
def hotw (w : BitVec 32) (g : Fin 256) : EReal := if w = BitVec.ofNat 32 g.val then 1 else 0

/-- Row j of tile i: the rows are cut into 125 tiles of 8000. -/
def tileRow (i : Fin 125) (j : Fin 8000) : Fin 1000000 := ⟨i.val * 8000 + j.val, by have := i.isLt; have := j.isLt; omega⟩

/-- Tile i's share of moment k of label g: the sum over the tile's rows of the quantity times the label's weight. -/
def tileMom (P Y : Fin 1000000 → EReal) (c : EReal) (mk : (⟨1, ![1000000]⟩ : Shape).Idx → BitVec 32)
    (i : Fin 125) (k : Fin 6) (g : Fin 256) : EReal :=
  ∑ j : Fin 8000, momRow P Y c k (tileRow i j) * hotw (mk (ix1 (tileRow i j))) g

/-- The mean over the 256 labels (the divisor is the word of 256.0, the same in both programs). -/
def mean256 (f : Fin 256 → EReal) : EReal :=
  Ideal.div (∑ g : Fin 256, f g) (Ideal.ofBits .f32 0x43800000#32)

/-- The word of +0.0 denotes 0. -/
theorem zero_f32 : Ideal.ofBits .f32 0x00000000#32 = 0 := by
  simp [Ideal.ofBits, Ideal.ieee]

/-- The word of 1.0 denotes 1. -/
theorem one_f32 : Ideal.ofBits .f32 0x3F800000#32 = 1 := by
  simp [Ideal.ofBits, Ideal.ieee, -EReal.coe_mul]; norm_num

/-- The word of 2.0 denotes 2. -/
theorem two_f32 : Ideal.ofBits .f32 0x40000000#32 = ((2 : ℝ) : EReal) := by
  simp [Ideal.ofBits, Ideal.ieee, -EReal.coe_mul]; norm_num

end Cert.GroupCorr

end
-- ==== Proof.LibTileSum.lean ====
/-
  Sums over an index set made of B equal tiles followed by a tail, and the few facts about the extended reals that go
  with them. A sum over Fin (B * E + N) is the sum over the B tiles of E plus the sum over the tail of N, and the same
  holds for a sum restricted by a predicate; a sum over the tiles of a quantity that does not depend on the tile is B
  copies of it; a sum over the places of Fin N equal to j is the term at j; B copies of a REAL number c, added in the
  extended reals, are (B : ℝ) * c (the extended reals are not a semiring, so the statement is made for real c); the
  inclusion of the reals commutes with finite sums, so a finite sum of real numbers is a real number; a sum of a one per
  element is the number of elements; the reciprocal square root of 1 is 1 and that of a positive real r is the real
  number (sqrt r)⁻¹; and in a family of integers all below K nobody equals a j with K ≤ j.
-/
import Idealize.ShloMosaic.PureOps.Ideal

noncomputable section

namespace Cert.Lib.TileSum

open Idealize.ShloMosaic

/-! ### Tiles and tail -/

theorem tile_lt {B E : ℕ} (N : ℕ) (t : Fin B) (e : Fin E) : t.val * E + e.val < B * E + N := by
  have h1 : t.val * E + e.val < (t.val + 1) * E := by
    have := e.isLt
    rw [Nat.add_mul, Nat.one_mul]
    omega
  have h2 : (t.val + 1) * E ≤ B * E := Nat.mul_le_mul_right E (Nat.succ_le_of_lt t.isLt)
  omega

/-- The flat position of element e of tile t: t * E + e. -/
def tileIx (B E N : ℕ) (t : Fin B) (e : Fin E) : Fin (B * E + N) := ⟨t.val * E + e.val, tile_lt N t e⟩

/-- The flat position of element n of the tail: B * E + n. -/
def tailIx (B E N : ℕ) (n : Fin N) : Fin (B * E + N) := ⟨B * E + n.val, by have := n.isLt; omega⟩

@[simp] theorem tileIx_val (B E N : ℕ) (t : Fin B) (e : Fin E) : (tileIx B E N t e).val = t.val * E + e.val := rfl
@[simp] theorem tailIx_val (B E N : ℕ) (n : Fin N) : (tailIx B E N n).val = B * E + n.val := rfl

/-- A sum over Fin (B * E) is the sum over the B tiles of the sums over the E places of a tile. -/
theorem sum_tiles {M : Type*} [AddCommMonoid M] (B E : ℕ) (g : Fin (B * E) → M) :
    ∑ k : Fin (B * E), g k = ∑ t : Fin B, ∑ e : Fin E, g ⟨t.val * E + e.val, by simpa using tile_lt 0 t e⟩ := by
  rw [← Fintype.sum_prod_type' (f := fun (t : Fin B) (e : Fin E) => g ⟨t.val * E + e.val, by simpa using tile_lt 0 t e⟩)]
  rw [← (finProdFinEquiv (m := B) (n := E)).sum_comp g]
  refine Finset.sum_congr rfl fun p _ => ?_
  congr 1
  apply Fin.ext
  simp [finProdFinEquiv, Nat.mul_comm, Nat.add_comm]

/-- A sum over Fin (B * E + N) is the sum over the B tiles of E plus the sum over the tail of N. -/
theorem sum_tiles_tail {M : Type*} [AddCommMonoid M] (B E N : ℕ) (f : Fin (B * E + N) → M) :
    ∑ k : Fin (B * E + N), f k
      = (∑ t : Fin B, ∑ e : Fin E, f (tileIx B E N t e)) + ∑ n : Fin N, f (tailIx B E N n) := by
  rw [Fin.sum_univ_add, sum_tiles]
  rfl

/-- The same for a sum restricted by a predicate: each tile, and the tail, restricted by the predicate at its places. -/
theorem sum_filter_tiles_tail {M : Type*} [AddCommMonoid M] (B E N : ℕ) (p : Fin (B * E + N) → Prop) [DecidablePred p]
    (f : Fin (B * E + N) → M) :
    ∑ k ∈ Finset.univ.filter p, f k
      = (∑ t : Fin B, ∑ e ∈ Finset.univ.filter (fun e => p (tileIx B E N t e)), f (tileIx B E N t e))
        + ∑ n ∈ Finset.univ.filter (fun n => p (tailIx B E N n)), f (tailIx B E N n) := by
  rw [Finset.sum_filter, sum_tiles_tail]
  simp only [Finset.sum_filter]

/-- A sum over the B tiles of a quantity that does not depend on the tile is B copies of it. -/
theorem sum_tiles_const {M : Type*} [AddCommMonoid M] (B : ℕ) (c : M) : ∑ _t : Fin B, c = B • c := by
  simp

/-- A sum over the places of Fin N whose value is j is the term at j. -/
theorem sum_filter_val_eq {M : Type*} [AddCommMonoid M] {N : ℕ} (j : ℕ) (hj : j < N) (f : Fin N → M) :
    ∑ n ∈ Finset.univ.filter (fun n : Fin N => n.val = j), f n = f ⟨j, hj⟩ := by
  have h : Finset.univ.filter (fun n : Fin N => n.val = j) = {⟨j, hj⟩} := by
    ext n
    simp [Fin.ext_iff]
  rw [h, Finset.sum_singleton]

/-! ### Real numbers inside the extended reals -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem exists_real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_finset_sum]; exact Finset.sum_congr rfl hg⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- B copies of a real number c are (B : ℝ) * c. -/
theorem nsmul_coe (B : ℕ) (c : ℝ) : B • (c : EReal) = ((B : ℝ) : EReal) * (c : EReal) := by
  rw [← EReal.coe_nsmul, nsmul_eq_mul, EReal.coe_mul]

/-- B copies of a real number c, summed over the tiles, are (B : ℝ) * c. -/
theorem sum_tiles_real (B : ℕ) (c : ℝ) : ∑ _t : Fin B, (c : EReal) = ((B : ℝ) : EReal) * (c : EReal) := by
  rw [sum_tiles_const, nsmul_coe]

/-- A sum of a one per element, in the extended reals, is the number of elements. -/
theorem sum_ones {ι : Type*} (s : Finset ι) : ∑ _i ∈ s, (1 : EReal) = ((s.card : ℝ) : EReal) := by
  have h := coe_finset_sum s (fun _ => (1 : ℝ))
  rw [Finset.sum_const, nsmul_eq_mul, mul_one] at h
  rw [h]
  simp only [EReal.coe_one]

/-! ### The reciprocal square root -/

/-- The reciprocal square root of 1 is 1. -/
theorem rsqrt_one : Ideal.rsqrt ((1 : ℝ) : EReal) = 1 := by
  rw [Ideal.rsqrt_coe]
  norm_num

/-- The reciprocal square root of a positive real r is the real number (sqrt r)⁻¹. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a real number. -/
theorem exists_real_rsqrt {r : ℝ} (h : 0 < r) : ∃ q : ℝ, Ideal.rsqrt (r : EReal) = (q : EReal) :=
  ⟨_, rsqrt_pos h⟩

/-! ### Bounded targets -/

/-- In a family of integers all below K, nobody equals a j with K ≤ j. -/
theorem filter_eq_empty_of_lt {E : ℕ} (d : Fin E → ℤ) (K : ℤ) (hd : ∀ e, d e < K) (j : ℤ) (hj : K ≤ j) :
    Finset.univ.filter (fun e => d e = j) = ∅ := by
  apply Finset.filter_eq_empty_iff.mpr
  intro e _ he
  have := hd e
  omega

end Cert.Lib.TileSum

end
-- ==== Proof.Algebra.lean ====
/-
  The raw-moment form about a global shift equals the centred form, for real data and a non-empty group.

  Over the reals, for a finite set S of n ≠ 0 indices and shifts a, b,
      Σ (f - mean f)(h - mean h) = Σ (f - a)(h - b) - (Σ (f - a)) (Σ (h - b)) / n,
  since both sides are Σ f h - (Σ f)(Σ h)/n. With f = h the left side is a sum of squares, so the right side is not
  negative and clamping it at 0 does nothing. In the extended reals every group sum of real data is the inclusion of the
  real sum and the division by the count n is the product with the real number 1/n, so both forms come down to
  max r (-r) with r the quotient of one real number by the root of another; the two numerators and the two radicands are
  equal real numbers, so the quotient and the root are never evaluated.
-/
import proofs.«426005_j69630009803062_3_alg».proof.Proof.GroupCorr
import proofs.«426005_j69630009803062_3_alg».proof.Proof.LibTileSum
import Mathlib.Tactic.FieldSimp
import Mathlib.Tactic.Ring

noncomputable section

open scoped BigOperators

namespace Cert.GroupCorr.Alg

open Idealize.ShloMosaic Idealize.ShloMosaic.ValueIdx

/-! ### Over the reals -/

section Real

variable {ι : Type*}

/-- A sum of products of shifted quantities, multiplied out. -/
theorem sum_shift_mul_shift (S : Finset ι) (f h : ι → ℝ) (a b : ℝ) :
    ∑ t ∈ S, (f t - a) * (h t - b)
      = ∑ t ∈ S, f t * h t - b * ∑ t ∈ S, f t - a * ∑ t ∈ S, h t + (S.card : ℝ) * (a * b) := by
  have e : ∀ t ∈ S, (f t - a) * (h t - b) = f t * h t - b * f t - a * h t + a * b := fun t _ => by ring
  rw [Finset.sum_congr rfl e, Finset.sum_add_distrib, Finset.sum_sub_distrib, Finset.sum_sub_distrib,
    ← Finset.mul_sum, ← Finset.mul_sum, Finset.sum_const, nsmul_eq_mul]

/-- A sum of shifted quantities. -/
theorem sum_shift (S : Finset ι) (f : ι → ℝ) (a : ℝ) :
    ∑ t ∈ S, (f t - a) = ∑ t ∈ S, f t - (S.card : ℝ) * a := by
  rw [Finset.sum_sub_distrib, Finset.sum_const, nsmul_eq_mul]

/-- The centred sum of products is the raw one about any shifts a, b, less the product of the shifted sums over n. -/
theorem centred_eq_raw (S : Finset ι) (hS : (S.card : ℝ) ≠ 0) (f h : ι → ℝ) (a b : ℝ) :
    ∑ t ∈ S, (f t - (∑ s ∈ S, f s) * (1 / (S.card : ℝ))) * (h t - (∑ s ∈ S, h s) * (1 / (S.card : ℝ)))
      = ∑ t ∈ S, (f t - a) * (h t - b)
        - (∑ t ∈ S, (f t - a)) * (∑ t ∈ S, (h t - b)) * (1 / (S.card : ℝ)) := by
  rw [sum_shift_mul_shift, sum_shift_mul_shift S f h a b, sum_shift, sum_shift]
  field_simp
  ring

end Real

/-! ### In the extended reals -/

/-- A group sum of real data is the inclusion of the real sum. -/
theorem gsum_coe (mk : (⟨1, ![1000000]⟩ : Shape).Idx → BitVec 32) (g : Fin 256) (f : Fin 1000000 → ℝ) :
    gsum mk g (fun t => (f t : EReal)) = ((∑ t ∈ grp mk g, f t : ℝ) : EReal) :=
  (Cert.Lib.TileSum.coe_finset_sum _ _).symm

/-- The group sum of ones is the number of rows in the group. -/
theorem gsum_one (mk : (⟨1, ![1000000]⟩ : Shape).Idx → BitVec 32) (g : Fin 256) :
    gsum mk g (fun _ => (1 : EReal)) = (((grp mk g).card : ℝ) : EReal) :=
  Cert.Lib.TileSum.sum_ones _

/-- The absolute value of the quotient of a real a by the root of a real b, as the two forms spell it. -/
def absQuot (a b : ℝ) : EReal :=
  max (Ideal.div (a : EReal) (Ideal.sqrt (b : EReal))) (-Ideal.div (a : EReal) (Ideal.sqrt (b : EReal)))

/-- The centred form of real data is the absolute quotient of the real centred sums. -/
theorem refTerm_coe (p y : Fin 1000000 → ℝ) (mk : (⟨1, ![1000000]⟩ : Shape).Idx → BitVec 32) (g : Fin 256)
    (hN : ((grp mk g).card : ℝ) ≠ 0) :
    refTerm (fun t => (p t : EReal)) (fun t => (y t : EReal)) mk g
      = absQuot
          (∑ t ∈ grp mk g, (p t - (∑ s ∈ grp mk g, p s) * (1 / ((grp mk g).card : ℝ)))
            * (y t - (∑ s ∈ grp mk g, y s) * (1 / ((grp mk g).card : ℝ))))
          ((∑ t ∈ grp mk g, (p t - (∑ s ∈ grp mk g, p s) * (1 / ((grp mk g).card : ℝ)))
            * (p t - (∑ s ∈ grp mk g, p s) * (1 / ((grp mk g).card : ℝ))))
           * (∑ t ∈ grp mk g, (y t - (∑ s ∈ grp mk g, y s) * (1 / ((grp mk g).card : ℝ)))
            * (y t - (∑ s ∈ grp mk g, y s) * (1 / ((grp mk g).card : ℝ))))) := by
  unfold refTerm absQuot
  simp only [gsum_one, gsum_coe, Ideal.div_coe hN, ← EReal.coe_mul, ← EReal.coe_sub]

/-- The raw-moment form of real data is the absolute quotient of the real raw-moment expressions. -/
theorem kerTerm_coe (p y : Fin 1000000 → ℝ) (c : ℝ) (mk : (⟨1, ![1000000]⟩ : Shape).Idx → BitVec 32) (g : Fin 256)
    (hN : ((grp mk g).card : ℝ) ≠ 0) :
    kerTerm (fun t => (p t : EReal)) (fun t => (y t : EReal)) (c : EReal) mk g
      = absQuot
          (∑ t ∈ grp mk g, (p t - c) * y t
            - (∑ t ∈ grp mk g, (p t - c)) * (∑ t ∈ grp mk g, y t) * (1 / ((grp mk g).card : ℝ)))
          ((∑ t ∈ grp mk g, (p t - c) * (p t - c)
            - (∑ t ∈ grp mk g, (p t - c)) * (∑ t ∈ grp mk g, (p t - c)) * (1 / ((grp mk g).card : ℝ)))
           * (∑ t ∈ grp mk g, y t * y t
            - (∑ t ∈ grp mk g, y t) * (∑ t ∈ grp mk g, y t) * (1 / ((grp mk g).card : ℝ)))) := by
  have hvx : 0 ≤ ∑ t ∈ grp mk g, (p t - c) * (p t - c)
      - (∑ t ∈ grp mk g, (p t - c)) * (∑ t ∈ grp mk g, (p t - c)) * (1 / ((grp mk g).card : ℝ)) := by
    rw [← centred_eq_raw (grp mk g) hN p p c c]
    exact Finset.sum_nonneg fun t _ => mul_self_nonneg _
  have hvy : 0 ≤ ∑ t ∈ grp mk g, y t * y t
      - (∑ t ∈ grp mk g, y t) * (∑ t ∈ grp mk g, y t) * (1 / ((grp mk g).card : ℝ)) := by
    have h := centred_eq_raw (grp mk g) hN y y 0 0
    simp only [sub_zero] at h
    rw [← h]
    exact Finset.sum_nonneg fun t _ => mul_self_nonneg _
  unfold kerTerm momTerm momRow absQuot
  simp only [momVal, gsum_one, gsum_coe, Ideal.div_coe hN, ← EReal.coe_mul, ← EReal.coe_sub]
  rw [max_eq_left (EReal.coe_nonneg.mpr hvx), max_eq_left (EReal.coe_nonneg.mpr hvy), ← EReal.coe_mul]

end Cert.GroupCorr.Alg

namespace Cert.GroupCorr

open Idealize.ShloMosaic Idealize.ShloMosaic.ValueIdx Cert.GroupCorr.Alg

/-- For real data, a real shift and a non-empty group, the raw-moment form is the centred form. -/
theorem kerTerm_eq_refTerm (p y : Fin 1000000 → ℝ) (c : ℝ) (mk : (⟨1, ![1000000]⟩ : Shape).Idx → BitVec 32)
    (g : Fin 256) (hne : (grp mk g).Nonempty) :
    kerTerm (fun t => (p t : EReal)) (fun t => (y t : EReal)) (c : EReal) mk g
      = refTerm (fun t => (p t : EReal)) (fun t => (y t : EReal)) mk g := by
  have hN : ((grp mk g).card : ℝ) ≠ 0 := by
    exact_mod_cast (Finset.card_pos.mpr hne).ne'
  have hcov := centred_eq_raw (grp mk g) hN p y c 0
  have hvx := centred_eq_raw (grp mk g) hN p p c c
  have hvy := centred_eq_raw (grp mk g) hN y y 0 0
  simp only [sub_zero] at hcov hvy
  rw [kerTerm_coe p y c mk g hN, refTerm_coe p y mk g hN, hcov, hvx, hvy]

end Cert.GroupCorr

end
-- ==== Proof.TileSums.lean ====
/-
  The weighted distance and the shift are real numbers for real data and positive weights, and the raw moments cut
  into tiles add up to the group sums.
-/
import proofs.«426005_j69630009803062_3_alg».proof.Proof.GroupCorr
import proofs.«426005_j69630009803062_3_alg».proof.Proof.LibTileSum

noncomputable section

open scoped BigOperators

namespace Cert.GroupCorr

open Idealize.ShloMosaic Idealize.ShloMosaic.ValueIdx

/-- For real feature rows and positive real weights the weighted distance of a row is a real number. -/
theorem dist_real (X1 X2 : (⟨2, ![1000000, 82]⟩ : Shape).Idx → EReal) (W : (⟨2, ![1, 82]⟩ : Shape).Idx → EReal)
    (h1 : ∀ i, ∃ r : ℝ, X1 i = (r : EReal)) (h2 : ∀ i, ∃ r : ℝ, X2 i = (r : EReal))
    (hW : ∀ i, ∃ r : ℝ, W i = (r : EReal) ∧ 0 < r) (t : Fin 1000000) : ∃ r : ℝ, dist X1 X2 W t = (r : EReal) := by
  -- real witnesses a, b, w of the two feature arrays and of the weights
  choose a ha using h1
  choose b hb using h2
  choose w hw using hW
  -- the weighted sum of squared differences is the inclusion of the same sum taken in the reals
  have hsum : (∑ d : Fin 82, (X1 (ix2 t d) - X2 (ix2 t d)) * (X1 (ix2 t d) - X2 (ix2 t d)) * W (ix2 (0 : Fin 1) d))
      = ((∑ d : Fin 82, (a (ix2 t d) - b (ix2 t d)) * (a (ix2 t d) - b (ix2 t d)) * w (ix2 (0 : Fin 1) d) : ℝ) :
          EReal) := by
    rw [Cert.Lib.TileSum.coe_finset_sum]
    refine Finset.sum_congr rfl fun d _ => ?_
    rw [ha, hb, (hw _).1, ← EReal.coe_sub, ← EReal.coe_mul, ← EReal.coe_mul]
  -- that real sum is a sum of squares times positive weights, so it is not negative and its root is a real number
  have hnn : ¬ (∑ d : Fin 82, (a (ix2 t d) - b (ix2 t d)) * (a (ix2 t d) - b (ix2 t d)) * w (ix2 (0 : Fin 1) d)) < 0 :=
    not_lt.mpr (Finset.sum_nonneg fun d _ => mul_nonneg (mul_self_nonneg _) (hw _).2.le)
  unfold dist
  rw [hsum, Ideal.sqrt_coe, if_neg hnn]
  exact ⟨_, rfl⟩

/-- For positive real weights the shift is a real number. -/
theorem shift_real (W : (⟨2, ![1, 82]⟩ : Shape).Idx → EReal) (hW : ∀ i, ∃ r : ℝ, W i = (r : EReal) ∧ 0 < r) :
    ∃ r : ℝ, shift W = (r : EReal) := by
  choose w hw using hW
  -- twice the sum of the weights is the inclusion of the same number computed in the reals
  have hsum : Ideal.ofBits .f32 0x40000000#32 * ∑ d : Fin 82, W (ix2 (0 : Fin 1) d)
      = ((2 * ∑ d : Fin 82, w (ix2 (0 : Fin 1) d) : ℝ) : EReal) := by
    rw [two_f32, EReal.coe_mul, Cert.Lib.TileSum.coe_finset_sum]
    congr 1
    exact Finset.sum_congr rfl fun d _ => (hw _).1
  -- twice a sum of positive numbers is not negative
  have hnn : ¬ (2 * ∑ d : Fin 82, w (ix2 (0 : Fin 1) d)) < 0 :=
    not_lt.mpr (mul_nonneg (by norm_num) (Finset.sum_nonneg fun d _ => (hw _).2.le))
  unfold shift
  rw [hsum, Ideal.sqrt_coe, if_neg hnn]
  exact ⟨_, rfl⟩

/-- A quantity times the 0/1 weight of a label word is the quantity when the word is the label and 0 otherwise. -/
theorem mul_hotw (x : EReal) (w : BitVec 32) (g : Fin 256) :
    x * hotw w g = if w = BitVec.ofNat 32 g.val then x else 0 := by
  unfold hotw
  split_ifs
  · exact mul_one x
  · exact mul_zero x

/-- The tiles' shares of a raw moment add up to the group sum of its quantity (no finiteness is needed: a quantity
    times the weight 0 is 0 and times the weight 1 is itself, on every extended real). -/
theorem sum_tileMom (P Y : Fin 1000000 → EReal) (c : EReal) (mk : (⟨1, ![1000000]⟩ : Shape).Idx → BitVec 32)
    (k : Fin 6) (g : Fin 256) : ∑ i : Fin 125, tileMom P Y c mk i k g = gsum mk g (momRow P Y c k) := by
  -- the group sum is the sum over all rows of the quantity where the row carries the label and of 0 elsewhere
  have hg : gsum mk g (momRow P Y c k)
      = ∑ t : Fin (125 * 8000), if mk (ix1 t) = BitVec.ofNat 32 g.val then momRow P Y c k t else 0 := by
    unfold gsum grp
    rw [Finset.sum_filter]
  -- cut the rows into 125 tiles of 8000; tile i's rows are tileRow i j
  rw [hg, Cert.Lib.TileSum.sum_tiles 125 8000]
  refine Finset.sum_congr rfl fun i _ => ?_
  unfold tileMom
  refine Finset.sum_congr rfl fun j _ => ?_
  rw [mul_hotw]
  rfl

end Cert.GroupCorr

end
-- ==== Proof.PreRead.lean ====
/-
  What the precondition says of the inputs: every entry of X1, X2, Y and W is a real number, every weight is positive,
  and every label 0 … 255 is carried by some row.

  The precondition is a conjunction of six "for all" statements, each an and-reduction of a one-bit array down to one
  word. Four of them say |x| < +∞ of an entry x; in the extended reals |x| = max x (-x) is +∞ at both infinities, so x is
  a real. The fifth says 0 < w of every weight. The sixth says, for each label g, that the number of rows t with
  mk t = g, counted as a 32-bit word, is positive as a signed word; the count is at most 1000000 < 2^31, so it is its
  own value, and a positive count has a witness row.
-/
import proofs.«426005_j69630009803062_3_alg».proof.Pre_finite_inputs
import proofs.«426005_j69630009803062_3_alg».proof.Proof.GroupCorr
import Idealize.ShloMosaic.Lib.ReduceAll
import Idealize.ShloMosaic.Lib.StableHlo.Predicate

noncomputable section

namespace Cert.PreRead

open Idealize.ShloMosaic Idealize.ShloMosaic.ValueIdx

/-- The elementwise and of two bit arrays, at an index. -/
theorem andi_at {s : Shape} {w : Nat} (x y : IVec s w) (i : s.Idx) : andi x y i = IntOp.andi (x i) (y i) := rfl

/-- The elementwise integer comparison, at an index. -/
theorem cmpi_at {s : Shape} {w : Nat} (p : CmpIPredicate) (x y : IVec s w) (i : s.Idx) :
    cmpi p x y i = IntOp.cmpi p (x i) (y i) := rfl

/-- The rank-1 index at coordinate k, in its two spellings. -/
theorem ofFin_eq_ix1 {n : Nat} (k : Fin n) : Shape.Idx.ofFin k = ix1 k := by
  funext a
  have ha : a = 0 := Subsingleton.elim _ _
  subst ha
  exact Fin.ext rfl

/-- The word 0x7F800000 denotes +∞. -/
theorem inf_f32 : Ideal.ofBits .f32 0x7F800000#32 = ⊤ := by
  simp [Ideal.ofBits, Ideal.ieee]

/-- An extended real whose absolute value max x (-x) is below +∞ is a real: at ⊥ and at ⊤ that maximum is ⊤. -/
theorem real_of_abs_lt (x : EReal)
    (h : Ideal.cmp .olt (max x (-x)) (Ideal.ofBits .f32 0x7F800000#32) = 1#1) : ∃ r : ℝ, x = (r : EReal) := by
  rw [inf_f32] at h
  simp only [Ideal.cmp, StableHlo.Predicate.ofBool_eq_one_iff, decide_eq_true_eq] at h
  induction x using EReal.rec with
  | bot => simp at h
  | coe r => exact ⟨r, rfl⟩
  | top => simp at h

/-- A real above the word of +0.0 is a positive real. -/
theorem pos_of_gt (x : EReal) (hx : ∃ r : ℝ, x = (r : EReal))
    (h : Ideal.cmp .ogt x (Ideal.ofBits .f32 0x00000000#32) = 1#1) : ∃ r : ℝ, x = (r : EReal) ∧ 0 < r := by
  obtain ⟨r, rfl⟩ := hx
  rw [Cert.GroupCorr.zero_f32] at h
  simp only [Ideal.cmp, StableHlo.Predicate.ofBool_eq_one_iff, decide_eq_true_eq] at h
  exact ⟨r, rfl, EReal.coe_pos.1 h⟩

/-- A column of an [n × m] mask whose count of set bits is positive as a signed 32-bit word (n < 2^31, so the count is
    its own value) has a row whose bit is set. -/
theorem exists_row_of_count_pos {n m : Nat} (hn : n < 2 ^ 31) (mask : IVec ⟨2, ![n, m]⟩ 1) (hw : 1 < 32)
    (h : (⟨2, ![n, m]⟩ : Shape).ReducesTo [0] ⟨1, ![m]⟩) {u : Shape} (hu : 0 < u.numel) (j : (⟨1, ![m]⟩ : Shape).Idx)
    (e : IntOp.cmpi .sgt (Host.reduce IntOp.addi (extui 32 mask hw) (constantI u 32 0#32) h hu j) 0#32 = 1#1) :
    ∃ p : Fin n, mask (StableHlo.Predicate.ij p (j 0)) = 1#1 := by
  -- the reduced word's value is the number of rows whose bit is set in column j
  have hc := StableHlo.Predicate.toNat_reduce_count_rows (by omega) mask hw h hu j
  have hle : (Finset.univ.filter (fun p : Fin n => mask (StableHlo.Predicate.ij p (j 0)) = 1#1)).card ≤ n := by
    simpa using Finset.card_le_univ (Finset.univ.filter (fun p : Fin n => mask (StableHlo.Predicate.ij p (j 0)) = 1#1))
  -- below 2^31 the signed order is the order of the values: the count is positive, so the set of such rows is non-empty
  rw [StableHlo.Predicate.sgt_iff_toNat (by rw [hc]; omega) (by decide), hc] at e
  obtain ⟨p, hp⟩ := Finset.card_pos.1 e
  exact ⟨p, (Finset.mem_filter.1 hp).2⟩

/-- The precondition, read: finiteness of the four float inputs, positivity of the weights, non-empty label groups. -/
theorem decode [Cert.Pre_finite_inputs.Facts]
    (X1 X2 : (⟨2, ![1000000, 82]⟩ : Shape).Idx → EReal) (Y : (⟨1, ![1000000]⟩ : Shape).Idx → EReal)
    (W : (⟨2, ![1, 82]⟩ : Shape).Idx → EReal) (mk : (⟨1, ![1000000]⟩ : Shape).Idx → BitVec 32)
    (h : Cert.Pre_finite_inputs.fn (F := Ideal) X1 X2 Y W mk = fun _ => 1#1) :
    (∀ i, ∃ r : ℝ, X1 i = (r : EReal)) ∧ (∀ i, ∃ r : ℝ, X2 i = (r : EReal)) ∧ (∀ i, ∃ r : ℝ, Y i = (r : EReal))
      ∧ (∀ i, ∃ r : ℝ, W i = (r : EReal) ∧ 0 < r) ∧ (∀ g : Fin 256, (Cert.GroupCorr.grp mk g).Nonempty) := by
  -- the scalar shape has one index, so each and-reduction to a scalar speaks of every element of its operand
  haveI : Subsingleton Cert.Pre_finite_inputs.S_.Idx := ⟨fun a b => funext fun d => d.elim0⟩
  -- the predicate at its one index is a nest of six conjuncts
  have h0 := congrFun h ValueIdx.ix0
  dsimp only [Cert.Pre_finite_inputs.fn, Cert.Pre_finite_inputs.fn_part1] at h0
  simp only [andi_at, IntOp.andi_eq_one] at h0
  obtain ⟨⟨⟨⟨⟨h1, h2⟩, h3⟩, h4⟩, h5⟩, h6⟩ := h0
  -- |x| < +∞ at every entry of X1, X2, Y, W; 0 < w at every weight
  have hW : ∀ i, ∃ r : ℝ, W i = (r : EReal) := fun i => real_of_abs_lt (W i) (Host.reduce_andi_all _ _ _ _ _ h4 i)
  refine ⟨fun i => real_of_abs_lt (X1 i) (Host.reduce_andi_all _ _ _ _ _ h1 i),
    fun i => real_of_abs_lt (X2 i) (Host.reduce_andi_all _ _ _ _ _ h2 i),
    fun i => real_of_abs_lt (Y i) (Host.reduce_andi_all _ _ _ _ _ h3 i),
    fun i => pos_of_gt (W i) (hW i) (Host.reduce_andi_all _ _ _ _ _ h5 i), fun g => ?_⟩
  -- label g: its count is positive, so some row p has the bit "mk p = g" set
  have hg := Host.reduce_andi_all _ _ _ _ _ h6 (ix1 g)
  obtain ⟨p, hp⟩ := exists_row_of_count_pos (by norm_num) _ _ _ _ (ix1 g) hg
  -- that bit compares the label column laid along the rows with the positions 0 … 255 laid along the columns
  have hp' := StableHlo.Predicate.cmpi_eq_iff.1 hp
  rw [StableHlo.Predicate.bcast_rows, StableHlo.Predicate.bcast_cols, StableHlo.Predicate.iota_apply, ofFin_eq_ix1] at hp'
  exact ⟨p, Finset.mem_filter.2 ⟨Finset.mem_univ _, hp'⟩⟩

end Cert.PreRead

end
-- ==== Proof.LibHostIndex.lean ====
/-
  Index operations of a host program on a FLAT array, read at an index.

  A gather of a flat array at a column of start indices (what x[idx] of a flat array lowers to when idx is flat) is the
  array at the start index, read signed and clamped. A scatter into a flat array at a column of scatter indices lands
  update e at the index the e-th scatter index names, read signed, when that is inside the array. From the second:
  the integer scatter with an associative, commutative body is a fold per element; with the body + and every update 1
  over zeros it COUNTS the updates that land at the element; the accumulating float scatter over the extended reals is
  the operand plus the sum of the updates that land there, as a sum over the update positions.
-/
import Idealize.ShloMosaic.PureOps.Ideal
import Idealize.ShloMosaic.PureOps.Contract
import Idealize.ShloMosaic.Lib.ValueIdx

noncomputable section

open scoped BigOperators

namespace Cert.Lib.HostIndex

open Idealize.ShloMosaic Idealize.ShloMosaic.ValueIdx

/-- A rank-1 index's coordinate is below the extent. -/
theorem idx1_lt {n : Nat} (j : (⟨1, ![n]⟩ : Shape).Idx) : (j 0).val < n := (j 0).isLt

/-- A rank-1 index set is its coordinate range. -/
def idxEquiv1 {n : Nat} : (⟨1, ![n]⟩ : Shape).Idx ≃ Fin n where
  toFun i := ⟨(i 0).val, idx1_lt i⟩
  invFun a := ix1 a
  left_inv i := (eq_ix1 i).symm
  right_inv _ := rfl

/-- A sum over the positions of a flat array that satisfy a condition, as a sum over the coordinate. -/
theorem sum_filter_idx1 {M : Type*} [AddCommMonoid M] {n : Nat} (p : (⟨1, ![n]⟩ : Shape).Idx → Prop) [DecidablePred p]
    (f : (⟨1, ![n]⟩ : Shape).Idx → M) :
    ∑ j ∈ Finset.univ.filter p, f j = ∑ e ∈ Finset.univ.filter (fun e : Fin n => p (ix1 e)), f (ix1 e) := by
  rw [Finset.sum_filter, Finset.sum_filter, ← Equiv.sum_comp (idxEquiv1 (n := n)).symm]
  rfl

/-- The number of positions of a flat array that satisfy a condition, counted over the coordinate. -/
theorem card_filter_idx1 {n : Nat} (p : (⟨1, ![n]⟩ : Shape).Idx → Prop) [DecidablePred p] :
    (Finset.univ.filter p).card = (Finset.univ.filter (fun e : Fin n => p (ix1 e))).card := by
  rw [Finset.card_eq_sum_ones, Finset.card_eq_sum_ones]
  exact sum_filter_idx1 p fun _ => 1

/-! ## The gather of a flat array at a column of start indices -/

section Take
variable {α : Type}

/-- The dimension numbers of x[idx] for a flat operand [N] and start indices [R, 1]: result [R]. -/
abbrev take1Dims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position y: the operand at the start index of row y, read signed and clamped into [0, N - 1]. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (⟨(y 0).val, idx1_lt y⟩ : Fin R) (0 : Fin 1))).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (⟨(y 0).val, idx1_lt y⟩ : Fin R) (0 : Fin 1) := by
    funext b; refine Fin.ext ?_
    match b with
    | ⟨0, _⟩ => rfl
    | ⟨1, _⟩ => rfl
  rw [hsi]
  rfl

end Take

/-! ## The scatter into a flat array at a column of scatter indices -/

section Put

/-- The dimension numbers of x.at[idx] for a flat operand [N], scatter indices [R, 1] and updates [R]. -/
abbrev put1Dims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The window of update j starts at the scatter index of row j, read signed. -/
theorem put1_start (j : (⟨1, ![R]⟩ : Shape).Idx) (idx : IVec ⟨2, ![R, 1]⟩ w) :
    (put1Dims N R wf).start j idx 0 = (idx (ix2 (⟨(j 0).val, idx1_lt j⟩ : Fin R) (0 : Fin 1))).toInt := by
  unfold ScatterDims.start
  rw [dif_pos (show (0 : Fin 1) ∈ (put1Dims N R wf).scatterDimsToOperandDims from List.mem_singleton.mpr rfl)]
  have hsi : (put1Dims N R wf).siIdx j ⟨List.idxOf (0 : Fin 1) (put1Dims N R wf).scatterDimsToOperandDims,
      List.idxOf_lt_length_iff.2 (List.mem_singleton.mpr rfl)⟩ = ix2 (⟨(j 0).val, idx1_lt j⟩ : Fin R) (0 : Fin 1) := by
    funext b; refine Fin.ext ?_
    match b with
    | ⟨0, _⟩ => rfl
    | ⟨1, _⟩ => rfl
  rw [hsi]

/-- The window has the one element. -/
theorem put1_window (j : (⟨1, ![R]⟩ : Shape).Idx) : (put1Dims N R wf).window j 0 = 0 := by
  unfold ScatterDims.window
  rw [dif_neg]
  simp [ScatterDims.sKept, Shape.kept, List.mem_filter, List.mem_finRange]

/-- Update j lands at position i exactly when the scatter index of row j, read signed, is i's coordinate. -/
theorem put1_resultIdx?_eq_some_iff (j : (⟨1, ![R]⟩ : Shape).Idx) (idx : IVec ⟨2, ![R, 1]⟩ w) (i : (⟨1, ![N]⟩ : Shape).Idx) :
    (put1Dims N R wf).resultIdx? j idx = some i
      ↔ (idx (ix2 (⟨(j 0).val, idx1_lt j⟩ : Fin R) (0 : Fin 1))).toInt = ((i 0).val : ℤ) := by
  have hi := idx1_lt i
  unfold ScatterDims.resultIdx?
  have hall : ∀ P : Fin 1 → Prop, (∀ a, P a) ↔ P 0 := fun P =>
    ⟨fun h => h 0, fun h a => by obtain rfl : a = 0 := Subsingleton.elim _ _; exact h⟩
  by_cases h : ∀ a : Fin (⟨1, ![N]⟩ : Shape).rank, 0 ≤ (put1Dims N R wf).start j idx a + (put1Dims N R wf).window j a ∧
      (put1Dims N R wf).start j idx a + (put1Dims N R wf).window j a < (⟨1, ![N]⟩ : Shape).size a
  · rw [dif_pos h]
    have h0 := h 0
    rw [put1_start, put1_window] at h0
    constructor
    · intro he
      have := congrArg (fun o : Option (⟨1, ![N]⟩ : Shape).Idx => o.map fun k => (k 0).val) he
      simp only [Option.map_some] at this
      have e := Option.some.inj this
      simp only [put1_start, put1_window] at e
      omega
    · intro he
      congr 1
      funext a
      obtain rfl : a = 0 := Subsingleton.elim _ _
      refine Fin.ext ?_
      show ((put1Dims N R wf).start j idx 0 + (put1Dims N R wf).window j 0).toNat = (i 0).val
      rw [put1_start, put1_window]
      omega
  · rw [dif_neg h]
    constructor
    · intro he; exact absurd he (by simp)
    · intro he
      exfalso
      apply h
      intro a
      obtain rfl : a = 0 := Subsingleton.elim _ _
      rw [put1_start, put1_window]
      have : (⟨1, ![N]⟩ : Shape).size 0 = N := rfl
      rw [this]
      omega

end Put

/-! ## The integer scatter as a fold per element, and as a count -/

section Fold
variable {α ι κ : Type} [DecidableEq ι]

/-- A fold of "update the element the step names" read at one element is the fold of the steps that name it. -/
theorem foldl_step_apply (step : (ι → α) → κ → ι → α) (g : κ → Option ι) (f : α → α → α) (upd : κ → α)
    (hstep : ∀ r n i, step r n i = if g n = some i then f (r i) (upd n) else r i) (i : ι) :
    ∀ (l : List κ) (x : ι → α),
      (l.foldl step x) i = l.foldl (fun a n => if g n = some i then f a (upd n) else a) (x i)
  | [], _ => rfl
  | n :: l, x => by
    rw [List.foldl_cons, List.foldl_cons, foldl_step_apply step g f upd hstep i l, hstep]

/-- Adding 1 at the steps that satisfy a condition counts them. -/
theorem foldl_count (p : κ → Prop) [DecidablePred p] :
    ∀ (l : List κ) (a : BitVec 32),
      l.foldl (fun a n => if p n then a + 1#32 else a) a = a + BitVec.ofNat 32 (l.countP fun n => decide (p n))
  | [], a => by simp
  | n :: l, a => by
    rw [List.foldl_cons, foldl_count p l, List.countP_cons]
    by_cases h : p n
    · simp only [h, if_true, decide_true]
      rw [BitVec.add_assoc]
      congr 1
      apply BitVec.eq_of_toNat_eq
      simp [BitVec.toNat_add, BitVec.toNat_ofNat, Nat.add_comm]
    · simp [h]

end Fold

/-- The steps of a list of all positions that satisfy a condition are as many as the positions that do. -/
theorem countP_finRange {n : Nat} (p : Fin n → Prop) [DecidablePred p] :
    (List.finRange n).countP (fun k => decide (p k)) = (Finset.univ.filter p).card := by
  rw [List.countP_eq_length_filter]
  have : (Finset.univ.filter p : Finset (Fin n)) = ((List.finRange n).filter fun k => decide (p k)).toFinset := by
    ext k; simp
  rw [this, List.toFinset_card_of_nodup ((List.nodup_finRange n).filter _)]

section IntScatter
variable {s si u : Shape} {w : Nat}

/-- The integer scatter read at an element: the fold, over the update positions in row-major order, of the updates that
    land there. -/
theorem scatter_apply (d : ScatterDims s si u) (f : BitVec 32 → BitVec 32 → BitVec 32) (x : s.Idx → BitVec 32)
    (idx : IVec si w) (upd : u.Idx → BitVec 32) (i : s.Idx) :
    Host.scatter d f x idx upd i
      = (List.finRange u.numel).foldl (fun a n => if d.resultIdx? (u.rowMajor.symm n) idx = some i
          then f a (upd (u.rowMajor.symm n)) else a) (x i) := by
  unfold Host.scatter
  refine foldl_step_apply _ (fun n => d.resultIdx? (u.rowMajor.symm n) idx) f (fun n => upd (u.rowMajor.symm n)) ?_ i _ x
  intro r n i'
  cases hg : d.resultIdx? (u.rowMajor.symm n) idx with
  | none => simp
  | some i₀ =>
    by_cases h : i' = i₀
    · subst h; simp
    · have h' : ¬ (i₀ = i') := fun e => h e.symm
      simp [h, h']

/-- The scatter of ones into zeros with the body + counts, at each element, the updates that land there. -/
theorem scatter_ones_apply (d : ScatterDims s si u) (idx : IVec si w) (i : s.Idx) :
    Host.scatter d IntOp.addi (fun _ => 0#32) idx (fun _ => 1#32) i
      = BitVec.ofNat 32 (Finset.univ.filter fun j : u.Idx => d.resultIdx? j idx = some i).card := by
  rw [scatter_apply]
  show (List.finRange u.numel).foldl (fun a n => if d.resultIdx? (u.rowMajor.symm n) idx = some i then a + 1#32 else a) 0#32 = _
  rw [foldl_count (fun n => d.resultIdx? (u.rowMajor.symm n) idx = some i), countP_finRange, BitVec.zero_add]
  congr 1
  exact Finset.card_bij (fun n _ => u.rowMajor.symm n) (fun n hn => by simpa using hn)
    (fun a _ b _ h => u.rowMajor.symm.injective h)
    (fun j hj => ⟨u.rowMajor j, by simpa using hj, by simp⟩)

end IntScatter

end Cert.Lib.HostIndex

end
-- ==== Proof.RefValue.lean ====
/-
  The reference's two results as functions of its arguments: the distances, row by row, and the mean over the labels of
  the centred form.
-/
import proofs.«426005_j69630009803062_3_alg».proof.Proof.Gen.ReferenceIdeal.Read
import proofs.«426005_j69630009803062_3_alg».proof.Proof.GroupCorr
import proofs.«426005_j69630009803062_3_alg».proof.Proof.LibHostIndex

noncomputable section

open scoped BigOperators

namespace Cert.ReferenceIdeal.RefValue

open Cert.ReferenceIdeal Cert.ReferenceIdeal.Gen Idealize.ShloMosaic Idealize.ShloMosaic.ValueIdx Cert.GroupCorr

/-! ## Label words -/

/-- A 32-bit word read signed is g < 256 exactly when it is the word of g. -/
theorem toInt_eq_iff (w : BitVec 32) (g : Nat) (hg : g < 256) : w.toInt = (g : ℤ) ↔ w = BitVec.ofNat 32 g := by
  constructor
  · intro h
    apply BitVec.eq_of_toNat_eq
    rw [BitVec.toNat_ofNat]
    have hw := w.isLt
    rw [BitVec.toInt_eq_toNat_cond] at h
    split at h <;> omega
  · rintro rfl
    rw [BitVec.toInt_eq_toNat_cond, BitVec.toNat_ofNat]
    split <;> omega

/-- The word of a label below 256 is not negative: the signed comparison with 0 answers 0. -/
theorem slt_label (g : Fin 256) : IntOp.cmpi .slt (BitVec.ofNat 32 g.val) 0#32 = 0#1 := by
  have h : (BitVec.ofNat 32 g.val).slt 0#32 = false := by
    have hg := (toInt_eq_iff (BitVec.ofNat 32 g.val) g.val g.isLt).2 rfl
    have h0 : (0#32 : BitVec 32).toInt = 0 := rfl
    unfold BitVec.slt
    rw [hg, h0]
    exact decide_eq_false (by omega)
  show BitVec.ofBool ((BitVec.ofNat 32 g.val).slt 0#32) = 0#1
  rw [h]
  rfl

/-! ## The accumulating scatter over zeros is the group sum; the gather at a label's rows is the label's element -/

/-- A scatter-add into zeros at the label column, read at label g: the sum of the updates over the rows that carry g. -/
theorem scatter_zero_apply (z : FVec Ideal S256 .f32) (hz : ∀ i, z i = 0) (col : IVec S1000000x1 32)
    (mk : IVec S1000000 32) (hcol : ∀ t : Fin 1000000, col (ix2 t (0 : Fin 1)) = mk (ix1 t))
    (upd : FVec Ideal S1000000 .f32) (g : Fin 256) :
    Host.scatterAdd (F := Ideal) (φ := .f32) scatter_S256_S1000000x1_S1000000_n_0_0_1 z col upd (ix1 g)
      = gsum mk g fun t => upd (ix1 t) := by
  have hd : scatter_S256_S1000000x1_S1000000_n_0_0_1
      = Cert.Lib.HostIndex.put1Dims 256 1000000 Facts₀.scatter_S256_S1000000x1_S1000000_n_0_0_1_wf := rfl
  unfold Host.scatterAdd
  rw [Ideal.hostScatterAdd_def, hd]
  show z (ix1 g) + ∑ j ∈ Finset.univ.filter (fun j =>
    (Cert.Lib.HostIndex.put1Dims 256 1000000 Facts₀.scatter_S256_S1000000x1_S1000000_n_0_0_1_wf).resultIdx? j col
      = some (ix1 g)), upd j = _
  rw [hz, zero_add, Cert.Lib.HostIndex.sum_filter_idx1]
  unfold gsum grp
  refine Finset.sum_congr (Finset.filter_congr fun e _ => ?_) fun _ _ => rfl
  rw [Cert.Lib.HostIndex.put1_resultIdx?_eq_some_iff]
  show (col (ix2 e (0 : Fin 1))).toInt = ((g.val : ℕ) : ℤ) ↔ _
  rw [hcol, toInt_eq_iff _ _ g.isLt]

/-- A gather at a row whose start index is the word of label g reads the operand at g. -/
theorem gather_label_apply (x : FVec Ideal S256 .f32) (col : IVec S1000000x1 32) (g : Fin 256) (t : Fin 1000000)
    (hcol : col (ix2 t (0 : Fin 1)) = BitVec.ofNat 32 g.val) :
    Host.gather gather_S256_S1000000x1_S1000000_n_0_n_n_0_1_1 x col (ix1 t) = x (ix1 g) := by
  have hd : gather_S256_S1000000x1_S1000000_n_0_n_n_0_1_1
      = Cert.Lib.HostIndex.take1Dims 256 1000000 Facts₀.gather_S256_S1000000x1_S1000000_n_0_n_n_0_1_1_wf := rfl
  rw [hd, Cert.Lib.HostIndex.gather_take1_apply (by decide)]
  refine congrArg (fun a => x (ix1 a)) (Fin.ext ?_)
  show min (col (ix2 t (0 : Fin 1))).toInt.toNat (256 - 1) = g.val
  rw [hcol, (toInt_eq_iff _ _ g.isLt).2 rfl]
  have := g.isLt
  omega

/-- Two families that agree on a label's rows have the same sum over them. -/
theorem gsum_congr {mk : IVec S1000000 32} {g : Fin 256} {v w : Fin 1000000 → EReal} (h : ∀ t ∈ grp mk g, v t = w t) :
    gsum mk g v = gsum mk g w := Finset.sum_congr rfl h

/-- The reference's second result holds, at row t, the weighted distance of row t. -/
theorem pred_eq (x0 x1 : (⟨S1000000x82, .f32⟩ : BufTy).Contents (Elt Ideal)) (x3 : (⟨S1x82, .f32⟩ : BufTy).Contents (Elt Ideal)) :
    Read.val_main_v4 (F := Ideal) x0 x1 x3 = fun i : S1000000x1.Idx => dist x0 x1 x3 (i 0) := by
  funext i
  rw [Read.val_main_v4_apply, Ideal.hostUnary_sqrt_def, Read.val_main_v3_apply]
  unfold Cert.GroupCorr.dist
  congr 1
  refine Finset.sum_congr rfl fun k _ => ?_
  have hl : Read.lidx_main_v3 i k = ix2 (i 0) k := by
    funext a; match a with | ⟨0, _⟩ => rfl | ⟨1, _⟩ => rfl
  have hr : Read.idx_main_v2 (Read.ridx_main_v3 i k) = ix2 (0 : Fin 1) k := by
    funext a; match a with
    | ⟨0, _⟩ => exact Fin.ext (by show (i 1).val = 0; have := idx2_lt1 i; omega)
    | ⟨1, _⟩ => rfl
  rw [Read.val_main_v1_apply, Read.val_main_v0_apply, Read.val_main_v2_apply, hl, hr]
  rfl

/-! ## The stages, read at a row or at a label -/

section Stages
variable (x0 x1 : (⟨S1000000x82, .f32⟩ : BufTy).Contents (Elt Ideal)) (x2 : (⟨S1000000, .f32⟩ : BufTy).Contents (Elt Ideal))
  (x3 : (⟨S1x82, .f32⟩ : BufTy).Contents (Elt Ideal)) (x4 : (⟨S1000000, .i32⟩ : BufTy).Contents (Elt Ideal))

/-- The label column at row t is the label word of row t. -/
theorem col_apply (t : Fin 1000000) :
    (broadcastInDim S1000000x1 ![0] Facts₀.bcast_S1000000_S1000000x1_0 x4 : IVec S1000000x1 32) (ix2 t (0 : Fin 1)) = x4 (ix1 t) := by
  have h := Read.val_main_v8_apply (F := Ideal) x4 (ix2 t (0 : Fin 1))
  unfold Read.val_main_v8 at h
  rw [h]
  congr 1
  funext a; match a with | ⟨0, _⟩ => rfl

/-- A zero constant broadcast over the labels is 0 everywhere. -/
theorem zeros_apply (i : S256.Idx) :
    (broadcastInDim S256 ![] Facts₀.bcast_S_S256 (constant (F := Ideal) S_ .f32 0x00000000#32) : FVec Ideal S256 .f32) i = 0 := by
  have h := Read.val_main_v7_apply (F := Ideal) i
  unfold Read.val_main_v7 Read.val_main_cst_0 at h
  rw [h]
  exact zero_f32

/-- The flattened distances at row t. -/
theorem v5_row (t : Fin 1000000) : Read.val_main_v5 (F := Ideal) x0 x1 x3 (ix1 t) = dist x0 x1 x3 t := by
  rw [Read.val_main_v5_apply, pred_eq]
  refine congrArg (Cert.GroupCorr.dist x0 x1 x3) (Fin.ext ?_)
  exact Nat.div_one _

/-- The count of label g. -/
theorem v9_label (g : Fin 256) : Read.val_main_v9 (F := Ideal) x4 (ix1 g) = gsum x4 g fun _ => 1 := by
  unfold Read.val_main_v9 Read.val_main_v7 Read.val_main_cst_0 Read.val_main_v8
  rw [scatter_zero_apply _ zeros_apply _ x4 (col_apply x4)]
  refine gsum_congr fun t _ => ?_
  rw [Read.val_main_v6_apply, Read.val_main_cst_apply, Ideal.ofBits_def, one_f32]

/-- The sum of the distances over label g. -/
theorem v12_label (g : Fin 256) : Read.val_main_v12 (F := Ideal) x0 x1 x3 x4 (ix1 g) = gsum x4 g (dist x0 x1 x3) := by
  unfold Read.val_main_v12 Read.val_main_v10 Read.val_main_cst_1 Read.val_main_v11
  rw [scatter_zero_apply _ zeros_apply _ x4 (col_apply x4)]
  exact gsum_congr fun t _ => v5_row x0 x1 x3 t

/-- The sum of Y over label g. -/
theorem v24_label (g : Fin 256) : Read.val_main_v24 (F := Ideal) x2 x4 (ix1 g) = gsum x4 g fun t => x2 (ix1 t) := by
  unfold Read.val_main_v24 Read.val_main_v22 Read.val_main_cst_3 Read.val_main_v23
  rw [scatter_zero_apply _ zeros_apply _ x4 (col_apply x4)]

/-- The gather's start index at a row that carries label g is the word of g (first gather). -/
theorem v19_row (g : Fin 256) (t : Fin 1000000) (h : x4 (ix1 t) = BitVec.ofNat 32 g.val) :
    Read.val_main_v19 (F := Ideal) x4 (ix2 t (0 : Fin 1)) = BitVec.ofNat 32 g.val := by
  have hi : Read.idx_main_v19 (ix2 t (0 : Fin 1)) = ix1 t := by
    funext a; match a with | ⟨0, _⟩ => rfl
  rw [Read.val_main_v19_apply, hi, Read.val_main_v18_apply, Read.val_main_v15_apply, Read.val_main_v14_apply,
    Read.val_main_c_apply, h, slt_label, select_zero]

/-- The gather's start index at a row that carries label g is the word of g (second gather). -/
theorem v31_row (g : Fin 256) (t : Fin 1000000) (h : x4 (ix1 t) = BitVec.ofNat 32 g.val) :
    Read.val_main_v31 (F := Ideal) x4 (ix2 t (0 : Fin 1)) = BitVec.ofNat 32 g.val := by
  have hi : Read.idx_main_v31 (ix2 t (0 : Fin 1)) = ix1 t := by
    funext a; match a with | ⟨0, _⟩ => rfl
  rw [Read.val_main_v31_apply, hi, Read.val_main_v30_apply, Read.val_main_v27_apply, Read.val_main_v26_apply,
    Read.val_main_c_4_apply, h, slt_label, select_zero]

/-- The centred distance at a row that carries label g. -/
theorem v21_row (g : Fin 256) (t : Fin 1000000) (h : x4 (ix1 t) = BitVec.ofNat 32 g.val) :
    Read.val_main_v21 (F := Ideal) x0 x1 x3 x4 (ix1 t)
      = dist x0 x1 x3 t - Ideal.div (gsum x4 g (dist x0 x1 x3)) (gsum x4 g fun _ => 1) := by
  rw [Read.val_main_v21_apply, Ideal.subf_def, v5_row]
  unfold Read.val_main_v20
  rw [gather_label_apply _ _ g t (v19_row x4 g t h), Read.val_main_v13_apply, Ideal.hostDivf_def, v12_label, v9_label]

/-- The centred Y at a row that carries label g. -/
theorem v33_row (g : Fin 256) (t : Fin 1000000) (h : x4 (ix1 t) = BitVec.ofNat 32 g.val) :
    Read.val_main_v33 (F := Ideal) x2 x4 (ix1 t)
      = x2 (ix1 t) - Ideal.div (gsum x4 g fun t => x2 (ix1 t)) (gsum x4 g fun _ => 1) := by
  rw [Read.val_main_v33_apply, Ideal.subf_def]
  unfold Read.val_main_v32
  rw [gather_label_apply _ _ g t (v31_row x4 g t h), Read.val_main_v25_apply, Ideal.hostDivf_def, v24_label, v9_label]

/-- Membership in a label's rows is carrying its word. -/
theorem mem_grp {g : Fin 256} {t : Fin 1000000} (h : t ∈ grp x4 g) : x4 (ix1 t) = BitVec.ofNat 32 g.val :=
  (Finset.mem_filter.mp h).2

/-- The sum of the centred products over label g. -/
theorem v37_label (g : Fin 256) :
    Read.val_main_v37 (F := Ideal) x0 x1 x2 x3 x4 (ix1 g)
      = gsum x4 g fun t =>
          (dist x0 x1 x3 t - Ideal.div (gsum x4 g (dist x0 x1 x3)) (gsum x4 g fun _ => 1))
            * (x2 (ix1 t) - Ideal.div (gsum x4 g fun t => x2 (ix1 t)) (gsum x4 g fun _ => 1)) := by
  unfold Read.val_main_v37 Read.val_main_v35 Read.val_main_cst_6 Read.val_main_v36
  rw [scatter_zero_apply _ zeros_apply _ x4 (col_apply x4)]
  refine gsum_congr fun t ht => ?_
  rw [Read.val_main_v34_apply, Ideal.mulf_def, v21_row x0 x1 x3 x4 g t (mem_grp x4 ht), v33_row x2 x4 g t (mem_grp x4 ht)]

/-- The sum of the squared centred distances over label g. -/
theorem v41_label (g : Fin 256) :
    Read.val_main_v41 (F := Ideal) x0 x1 x3 x4 (ix1 g)
      = gsum x4 g fun t =>
          (dist x0 x1 x3 t - Ideal.div (gsum x4 g (dist x0 x1 x3)) (gsum x4 g fun _ => 1))
            * (dist x0 x1 x3 t - Ideal.div (gsum x4 g (dist x0 x1 x3)) (gsum x4 g fun _ => 1)) := by
  unfold Read.val_main_v41 Read.val_main_v39 Read.val_main_cst_7 Read.val_main_v40
  rw [scatter_zero_apply _ zeros_apply _ x4 (col_apply x4)]
  refine gsum_congr fun t ht => ?_
  rw [Read.val_main_v38_apply, Ideal.mulf_def, v21_row x0 x1 x3 x4 g t (mem_grp x4 ht)]

/-- The sum of the squared centred Y over label g. -/
theorem v45_label (g : Fin 256) :
    Read.val_main_v45 (F := Ideal) x2 x4 (ix1 g)
      = gsum x4 g fun t =>
          (x2 (ix1 t) - Ideal.div (gsum x4 g fun t => x2 (ix1 t)) (gsum x4 g fun _ => 1))
            * (x2 (ix1 t) - Ideal.div (gsum x4 g fun t => x2 (ix1 t)) (gsum x4 g fun _ => 1)) := by
  unfold Read.val_main_v45 Read.val_main_v43 Read.val_main_cst_8 Read.val_main_v44
  rw [scatter_zero_apply _ zeros_apply _ x4 (col_apply x4)]
  refine gsum_congr fun t ht => ?_
  rw [Read.val_main_v42_apply, Ideal.mulf_def, v33_row x2 x4 g t (mem_grp x4 ht)]

/-- Label g's term. -/
theorem v49_label (g : Fin 256) :
    Read.val_main_v49 (F := Ideal) x0 x1 x2 x3 x4 (ix1 g) = refTerm (dist x0 x1 x3) (fun t => x2 (ix1 t)) x4 g := by
  have habs : ∀ x : EReal, FloatOps.absf (F := Ideal) (φ := .f32) x = max x (-x) := fun _ => rfl
  rw [Read.val_main_v49_apply, Ideal.hostAbsf_def, habs, Read.val_main_v48_apply, Ideal.hostDivf_def,
    Read.val_main_v47_apply, Ideal.hostUnary_sqrt_def, Read.val_main_v46_apply, Ideal.mulf_def,
    v37_label, v41_label, v45_label]
  unfold refTerm
  rfl

end Stages

/-- The reference's first result is the mean over the labels of the centred form of the distances against Y. -/
theorem coeff_eq (x0 x1 : (⟨S1000000x82, .f32⟩ : BufTy).Contents (Elt Ideal)) (x2 : (⟨S1000000, .f32⟩ : BufTy).Contents (Elt Ideal))
    (x3 : (⟨S1x82, .f32⟩ : BufTy).Contents (Elt Ideal)) (x4 : (⟨S1000000, .i32⟩ : BufTy).Contents (Elt Ideal)) :
    Read.val_main_v51 (F := Ideal) x0 x1 x2 x3 x4
      = fun _ => mean256 fun g => refTerm (dist x0 x1 x3) (fun t => x2 (ix1 t)) x4 g := by
  funext i
  rw [Read.val_main_v51_apply, Ideal.hostDivf_def, Read.val_main_v50_apply, Read.val_main_cst_9_apply,
    Read.val_main_cst_10_apply, Ideal.ofBits_def, Ideal.ofBits_def, zero_f32, zero_add]
  unfold mean256
  refine congrArg (fun s => Ideal.div s (Ideal.ofBits .f32 0x43800000#32)) ?_
  rw [← Equiv.sum_comp (Cert.Lib.HostIndex.idxEquiv1 (n := 256)).symm]
  exact Finset.sum_congr rfl fun g _ => v49_label x0 x1 x2 x3 x4 g

end Cert.ReferenceIdeal.RefValue

end
-- ==== Proof.KerPay.lean ====
/-
  The kernel body's two stored values at an index, as functions of the values it loads: the distance of the tile's
  row j, and the tile's share of moment k of label g.
-/
import proofs.«426005_j69630009803062_3_alg».proof.Proof.Gen.KernelIdeal.Skeleton
import proofs.«426005_j69630009803062_3_alg».proof.Proof.GroupCorr
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.GroupCorr

/-- The distance of the tile's row j from the tile's two feature blocks and the weight column. -/
def rowDist (v0 v1 : S8000x82.Idx → EReal) (v4 : S82x1.Idx → EReal) (j : Fin 8000) : EReal :=
  Ideal.sqrt (∑ d : Fin 82, (v0 (ix2 j d) - v1 (ix2 j d)) * (v0 (ix2 j d) - v1 (ix2 j d)) * v4 (ix2 d (0 : Fin 1)))

/-! ## The first product: rows of squared differences against the weight column -/

/-- The operand coordinates of the first product, axis by axis: the left operand's row is the result's row, its column
    the contraction coordinate; the right operand's row is the contraction coordinate, its column the result's column. -/
theorem lhs_mm1_0 (i : S8000x1.Idx) (q : dot_S8000x82_S82x1_S8000x1_1_0_0_1_n_n.contr.Idx) :
    (dot_S8000x82_S82x1_S8000x1_1_0_0_1_n_n.lhsIdx i q 0).val = (i 0).val := by
  unfold DotDims.lhsIdx
  rw [dif_neg (show ¬(0 : Fin S8000x82.rank) ∈ dot_S8000x82_S82x1_S8000x1_1_0_0_1_n_n.lhsBatch by decide), dif_pos (show (0 : Fin S8000x82.rank) ∈ dot_S8000x82_S82x1_S8000x1_1_0_0_1_n_n.lhsNonContracting by decide)]
  rfl
theorem lhs_mm1_1 (i : S8000x1.Idx) (q : dot_S8000x82_S82x1_S8000x1_1_0_0_1_n_n.contr.Idx) :
    (dot_S8000x82_S82x1_S8000x1_1_0_0_1_n_n.lhsIdx i q 1).val = (q ⟨0, by decide⟩).val :=
  dot_S8000x82_S82x1_S8000x1_1_0_0_1_n_n.lhsIdx_val_of_single rfl i q
theorem rhs_mm1_0 (i : S8000x1.Idx) (q : dot_S8000x82_S82x1_S8000x1_1_0_0_1_n_n.contr.Idx) :
    (dot_S8000x82_S82x1_S8000x1_1_0_0_1_n_n.rhsIdx i q 0).val = (q ⟨0, by decide⟩).val :=
  dot_S8000x82_S82x1_S8000x1_1_0_0_1_n_n.rhsIdx_val_of_single rfl i q
theorem rhs_mm1_1 (i : S8000x1.Idx) (q : dot_S8000x82_S82x1_S8000x1_1_0_0_1_n_n.contr.Idx) :
    (dot_S8000x82_S82x1_S8000x1_1_0_0_1_n_n.rhsIdx i q 1).val = (i 1).val := by
  unfold DotDims.rhsIdx
  rw [dif_neg (show ¬(1 : Fin S82x1.rank) ∈ dot_S8000x82_S82x1_S8000x1_1_0_0_1_n_n.rhsBatch by decide), dif_pos (show (1 : Fin S82x1.rank) ∈ dot_S8000x82_S82x1_S8000x1_1_0_0_1_n_n.rhsNonContracting by decide)]
  rfl

/-- The first product into the zero accumulator, at row j: the sum over the 82 features. -/
theorem mm1_apply (a : FVec Ideal S8000x82 .f32) (b : FVec Ideal S82x1 .f32) (j : Fin 8000) :
    matmul dot_S8000x82_S82x1_S8000x1_1_0_0_1_n_n none a b (constant (F := Ideal) S8000x1 .f32 0x00000000#32) (ix2 j (0 : Fin 1))
      = ∑ d : Fin 82, a (ix2 j d) * b (ix2 d (0 : Fin 1)) := by
  simp only [matmul]
  rw [Ideal.matmul_constant_zero_apply, ← Equiv.sum_comp (ValueIdx.contrEquiv1 dot_S8000x82_S82x1_S8000x1_1_0_0_1_n_n 82 rfl rfl).symm]
  refine Finset.sum_congr rfl fun d _ => ?_
  have hk := ValueIdx.contrEquiv1_symm_val dot_S8000x82_S82x1_S8000x1_1_0_0_1_n_n 82 rfl rfl d
  have el : dot_S8000x82_S82x1_S8000x1_1_0_0_1_n_n.lhsIdx (ix2 j (0 : Fin 1)) ((ValueIdx.contrEquiv1 dot_S8000x82_S82x1_S8000x1_1_0_0_1_n_n 82 rfl rfl).symm d) = ix2 j d := funext fun a => Fin.ext (by
    match a with
    | ⟨0, _⟩ => exact lhs_mm1_0 _ _
    | ⟨1, _⟩ => exact (lhs_mm1_1 _ _).trans hk)
  have er : dot_S8000x82_S82x1_S8000x1_1_0_0_1_n_n.rhsIdx (ix2 j (0 : Fin 1)) ((ValueIdx.contrEquiv1 dot_S8000x82_S82x1_S8000x1_1_0_0_1_n_n 82 rfl rfl).symm d) = ix2 d (0 : Fin 1) := funext fun a => Fin.ext (by
    match a with
    | ⟨0, _⟩ => exact (rhs_mm1_0 _ _).trans hk
    | ⟨1, _⟩ => exact rhs_mm1_1 _ _)
  rw [el, er]

/-- The transposed root of the first product at lane j is the distance of row j. -/
theorem pay1_apply (v0 v1 : Vec Ideal S8000x82 .f32) (v4 : Vec Ideal S82x1 .f32) (j : Fin 8000) :
    k0_pay1 (F := Ideal) v0 v1 v4 (ix2 (0 : Fin 1) j) = rowDist v0 v1 v4 j := by
  unfold k0_pay1 rowDist
  rw [transpose_ix2_apply]
  show Ideal.sqrt _ = _
  rw [mm1_apply, shapeCast_self]
  rfl

/-- The first stored value at lane j is the distance of the tile's row j. -/
theorem pay2_apply (v0 v1 : Vec Ideal S8000x82 .f32) (v4 : Vec Ideal S82x1 .f32) (j : Fin 8000) :
    k0_pay2 (F := Ideal) v0 v1 v4 (ix3 (0 : Fin 1) (0 : Fin 1) j) = rowDist v0 v1 v4 j := by
  unfold k0_pay2
  rw [shapeCast_ab_1ab_apply]
  exact pay1_apply v0 v1 v4 j

/-! ## The second product: the six rows of quantities against the 0/1 label weights -/

/-- The operand coordinates of the second product, axis by axis, as for the first. -/
theorem lhs_mm2_0 (i : S6x256.Idx) (q : dot_S6x8000_S8000x256_S6x256_1_0_0_1_n_n.contr.Idx) :
    (dot_S6x8000_S8000x256_S6x256_1_0_0_1_n_n.lhsIdx i q 0).val = (i 0).val := by
  unfold DotDims.lhsIdx
  rw [dif_neg (show ¬(0 : Fin S6x8000.rank) ∈ dot_S6x8000_S8000x256_S6x256_1_0_0_1_n_n.lhsBatch by decide), dif_pos (show (0 : Fin S6x8000.rank) ∈ dot_S6x8000_S8000x256_S6x256_1_0_0_1_n_n.lhsNonContracting by decide)]
  rfl
theorem lhs_mm2_1 (i : S6x256.Idx) (q : dot_S6x8000_S8000x256_S6x256_1_0_0_1_n_n.contr.Idx) :
    (dot_S6x8000_S8000x256_S6x256_1_0_0_1_n_n.lhsIdx i q 1).val = (q ⟨0, by decide⟩).val :=
  dot_S6x8000_S8000x256_S6x256_1_0_0_1_n_n.lhsIdx_val_of_single rfl i q
theorem rhs_mm2_0 (i : S6x256.Idx) (q : dot_S6x8000_S8000x256_S6x256_1_0_0_1_n_n.contr.Idx) :
    (dot_S6x8000_S8000x256_S6x256_1_0_0_1_n_n.rhsIdx i q 0).val = (q ⟨0, by decide⟩).val :=
  dot_S6x8000_S8000x256_S6x256_1_0_0_1_n_n.rhsIdx_val_of_single rfl i q
theorem rhs_mm2_1 (i : S6x256.Idx) (q : dot_S6x8000_S8000x256_S6x256_1_0_0_1_n_n.contr.Idx) :
    (dot_S6x8000_S8000x256_S6x256_1_0_0_1_n_n.rhsIdx i q 1).val = (i 1).val := by
  unfold DotDims.rhsIdx
  rw [dif_neg (show ¬(1 : Fin S8000x256.rank) ∈ dot_S6x8000_S8000x256_S6x256_1_0_0_1_n_n.rhsBatch by decide), dif_pos (show (1 : Fin S8000x256.rank) ∈ dot_S6x8000_S8000x256_S6x256_1_0_0_1_n_n.rhsNonContracting by decide)]
  rfl

/-- The second product into the zero accumulator, at (k, g): the sum over the tile's 8000 rows. -/
theorem mm2_apply (a : FVec Ideal S6x8000 .bf16) (b : FVec Ideal S8000x256 .bf16) (k : Fin 6) (g : Fin 256) :
    matmul dot_S6x8000_S8000x256_S6x256_1_0_0_1_n_n none a b (constant (F := Ideal) S6x256 .f32 0x00000000#32) (ix2 k g)
      = ∑ q : Fin 8000, a (ix2 k q) * b (ix2 q g) := by
  simp only [matmul]
  rw [Ideal.matmul_constant_zero_apply, ← Equiv.sum_comp (ValueIdx.contrEquiv1 dot_S6x8000_S8000x256_S6x256_1_0_0_1_n_n 8000 rfl rfl).symm]
  refine Finset.sum_congr rfl fun q _ => ?_
  have hk := ValueIdx.contrEquiv1_symm_val dot_S6x8000_S8000x256_S6x256_1_0_0_1_n_n 8000 rfl rfl q
  have el : dot_S6x8000_S8000x256_S6x256_1_0_0_1_n_n.lhsIdx (ix2 k g) ((ValueIdx.contrEquiv1 dot_S6x8000_S8000x256_S6x256_1_0_0_1_n_n 8000 rfl rfl).symm q) = ix2 k q := funext fun a => Fin.ext (by
    match a with
    | ⟨0, _⟩ => exact lhs_mm2_0 _ _
    | ⟨1, _⟩ => exact (lhs_mm2_1 _ _).trans hk)
  have er : dot_S6x8000_S8000x256_S6x256_1_0_0_1_n_n.rhsIdx (ix2 k g) ((ValueIdx.contrEquiv1 dot_S6x8000_S8000x256_S6x256_1_0_0_1_n_n 8000 rfl rfl).symm q) = ix2 q g := funext fun a => Fin.ext (by
    match a with
    | ⟨0, _⟩ => exact (rhs_mm2_0 _ _).trans hk
    | ⟨1, _⟩ => exact rhs_mm2_1 _ _)
  rw [el, er]

/-! ## The layout operations of the second value, read at coordinates -/

/-- The one element of a [1,1] vector. -/
theorem extract00_apply {α : Type} (x : S1x1.Idx → α) (h : ∀ a, (![0, 0] : Fin 2 → Nat) a < S1x1.size a) :
    extractAt ![0, 0] x h = x (ix2 (0 : Fin 1) (0 : Fin 1)) := by
  unfold extractAt
  exact congrArg x (funext fun a => Fin.ext (match a with | ⟨0, _⟩ => rfl | ⟨1, _⟩ => rfl))

/-- A column [8000,1] broadcast over 256 lanes reads, at (q, g), the column at q. -/
theorem bcastCol_apply {α : Type} (x : S8000x1.Idx → α) (h : S8000x1.Broadcasts S8000x256) (q : Fin 8000) (g : Fin 256) :
    broadcastTo S8000x256 x h (ix2 q g) = x (ix2 q (0 : Fin 1)) := by
  refine broadcastTo_apply x h (ix2 q g) (ix2 q (0 : Fin 1)) fun ax => ?_
  match ax with
  | ⟨0, _⟩ => rfl
  | ⟨1, _⟩ => rfl

/-- The lane counter along axis 1 reads, at (q, g), the word of g. -/
theorem iotaLane_apply (h : S8000x256.Iotas .tc 32 [1]) (q : Fin 8000) (g : Fin 256) :
    iota .tc S8000x256 32 [1] h (ix2 q g) = BitVec.ofNat 32 g.val :=
  iota_single_apply .tc S8000x256 32 1 h (ix2 q g)

/-- Six rows as the list of pieces of a stack. -/
abbrev rows6 {α : Type} (x0 x1 x2 x3 x4 x5 : S1x8000.Idx → α) : List ((s : Shape) × (s.Idx → α)) :=
  [⟨S1x8000, x0⟩, ⟨S1x8000, x1⟩, ⟨S1x8000, x2⟩, ⟨S1x8000, x3⟩, ⟨S1x8000, x4⟩, ⟨S1x8000, x5⟩]

/-- Six rows stacked along axis 0 read, at (k, q), row k at q. -/
theorem concat6_apply {α : Type} (x0 x1 x2 x3 x4 x5 : S1x8000.Idx → α)
    (h : Shape.Concatenates [S1x8000, S1x8000, S1x8000, S1x8000, S1x8000, S1x8000] S6x8000 0) (k : Fin 6) (q : Fin 8000) :
    concatenate S6x8000 0 [⟨S1x8000, x0⟩, ⟨S1x8000, x1⟩, ⟨S1x8000, x2⟩, ⟨S1x8000, x3⟩, ⟨S1x8000, x4⟩, ⟨S1x8000, x5⟩] h (ix2 k q)
      = (match k with | 0 => x0 | 1 => x1 | 2 => x2 | 3 => x3 | 4 => x4 | 5 => x5) (ix2 (0 : Fin 1) q) := by
  have hi : ∀ (k : Fin 6) (b : Fin S1x8000.rank), b.cast (rfl : S1x8000.rank = S6x8000.rank) ≠ (0 : Fin S6x8000.rank) →
      ((ix2 (0 : Fin 1) q : S1x8000.Idx) b).val = ((ix2 k q : S6x8000.Idx) (b.cast rfl)).val := fun k b hb =>
    match b, hb with
    | ⟨0, _⟩, hb => absurd (Fin.ext rfl) hb
    | ⟨1, _⟩, _ => rfl
  match k with
  | 0 => exact concatenate_apply_piece (t := S6x8000) 0 (rows6 x0 x1 x2 x3 x4 x5) h (ix2 0 q) 0 (by show 0 < 6; decide) S1x8000 x0 rfl rfl 0 rfl (ix2 (0 : Fin 1) q) (hi 0) rfl
  | 1 => exact concatenate_apply_piece (t := S6x8000) 0 (rows6 x0 x1 x2 x3 x4 x5) h (ix2 1 q) 1 (by show 1 < 6; decide) S1x8000 x1 rfl rfl 1 rfl (ix2 (0 : Fin 1) q) (hi 1) rfl
  | 2 => exact concatenate_apply_piece (t := S6x8000) 0 (rows6 x0 x1 x2 x3 x4 x5) h (ix2 2 q) 2 (by show 2 < 6; decide) S1x8000 x2 rfl rfl 2 rfl (ix2 (0 : Fin 1) q) (hi 2) rfl
  | 3 => exact concatenate_apply_piece (t := S6x8000) 0 (rows6 x0 x1 x2 x3 x4 x5) h (ix2 3 q) 3 (by show 3 < 6; decide) S1x8000 x3 rfl rfl 3 rfl (ix2 (0 : Fin 1) q) (hi 3) rfl
  | 4 => exact concatenate_apply_piece (t := S6x8000) 0 (rows6 x0 x1 x2 x3 x4 x5) h (ix2 4 q) 4 (by show 4 < 6; decide) S1x8000 x4 rfl rfl 4 rfl (ix2 (0 : Fin 1) q) (hi 4) rfl
  | 5 => exact concatenate_apply_piece (t := S6x8000) 0 (rows6 x0 x1 x2 x3 x4 x5) h (ix2 5 q) 5 (by show 5 < 6; decide) S1x8000 x5 rfl rfl 5 rfl (ix2 (0 : Fin 1) q) (hi 5) rfl

/-! ## The 0/1 weight -/

/-- The compare bit widened and converted: 1 when the label word is the word of g, else 0. -/
theorem hot_apply (w : BitVec 32) (g : Fin 256) :
    FloatOps.sitofp (F := Ideal) .f32 ((IntOp.cmpi .eq w (BitVec.ofNat 32 g.val)).setWidth 32) = hotw w g := by
  unfold hotw
  by_cases hw : w = BitVec.ofNat 32 g.val
  · have hc : IntOp.cmpi .eq w (BitVec.ofNat 32 g.val) = 1#1 := by
      show BitVec.ofBool (w == BitVec.ofNat 32 g.val) = 1#1
      rw [beq_iff_eq.mpr hw]; rfl
    rw [if_pos hw, hc]
    show (((((1#1 : BitVec 1).setWidth 32).toInt : ℝ)) : EReal) = 1
    rw [show ((1#1 : BitVec 1).setWidth 32).toInt = 1 by decide]
    norm_num
  · have hc : IntOp.cmpi .eq w (BitVec.ofNat 32 g.val) = 0#1 := by
      show BitVec.ofBool (w == BitVec.ofNat 32 g.val) = 0#1
      rw [beq_eq_false_iff_ne.mpr hw]; rfl
    rw [if_neg hw, hc]
    show (((((0#1 : BitVec 1).setWidth 32).toInt : ℝ)) : EReal) = 0
    rw [show ((0#1 : BitVec 1).setWidth 32).toInt = 0 by decide]
    norm_num

/-- The second stored value at (k, g) is the sum over the tile's rows of quantity k (of the shifted distance and the
    target) times the weight the row's label word gives label g. -/
theorem pay3_apply (v0 v1 : Vec Ideal S8000x82 .f32) (v4 : Vec Ideal S82x1 .f32) (v12 : Vec Ideal S1x1 .f32)
    (v16 : Vec Ideal S1x1x8000 .f32) (v18 : Vec Ideal S8000x1 .i32) (k : Fin 6) (g : Fin 256) :
    k0_pay3 (F := Ideal) v0 v1 v4 v12 v16 v18 (ix3 (0 : Fin 1) k g)
      = ∑ j : Fin 8000, momVal (rowDist v0 v1 v4 j - v12 (ix2 (0 : Fin 1) (0 : Fin 1))) (v16 (ix3 (0 : Fin 1) (0 : Fin 1) j)) k
          * hotw (v18 (ix2 j (0 : Fin 1))) g := by
  unfold k0_pay3
  rw [shapeCast_ab_1ab_apply, mm2_apply]
  refine Finset.sum_congr rfl fun q _ => ?_
  rw [truncf_apply, truncf_apply, concat6_apply]
  refine congrArg₂ (· * ·) ?_ ?_
  · -- row k of the stack at lane q
    have hu : (subf (k0_pay1 (F := Ideal) v0 v1 v4) (broadcast S1x8000 (extractAt ![0, 0] v12 inpos_S1x1_p0_0)) : FVec Ideal S1x8000 .f32)
        (ix2 (0 : Fin 1) q) = rowDist v0 v1 v4 q - v12 (ix2 (0 : Fin 1) (0 : Fin 1)) := by
      rw [subf_apply, pay1_apply, broadcast_apply, extract00_apply]
    have hy : shapeCast S1x8000 v16 shapeCasts_S1x1x8000_S1x8000 (ix2 (0 : Fin 1) q) = v16 (ix3 (0 : Fin 1) (0 : Fin 1) q) :=
      shapeCast_1ab_ab_apply v16 _ (0 : Fin 1) q
    match k with
    | 0 =>
      show Ideal.ofBits .f32 0x3F800000#32 = 1
      exact one_f32
    | 1 => exact hu
    | 2 => exact hy
    | 3 =>
      show _ * _ = _ * _
      rw [hu]
    | 4 =>
      show _ * _ = _ * _
      rw [hy]
    | 5 =>
      show _ * _ = _ * _
      rw [hu, hy]
  · -- the 0/1 weight of row q for label g
    rw [sitofp_apply, extui_apply]
    show FloatOps.sitofp (F := Ideal) .f32 ((IntOp.cmpi .eq (broadcastTo S8000x256 (shapeCast S8000x1 v18 shapeCasts_S8000x1_S8000x1) broadcasts_S8000x1_S8000x256 (ix2 q g))
      (iota .tc S8000x256 32 [1] iota_S8000x256_d1_w32 (ix2 q g))).setWidth 32) = _
    rw [bcastCol_apply, shapeCast_self, iotaLane_apply]
    exact hot_apply _ g

end Cert.KernelIdeal.Pay

end
-- ==== Proof.KerHead.lean ====
/-
  The arrays the host writes before the region, read at an index: the weight column is the weight row transposed, the
  one-entry array holds the shift, the target cut into tiles holds Y row by row, the label column holds the labels.
-/
import proofs.«426005_j69630009803062_3_alg».proof.Proof.Gen.KernelIdeal.Frame
import proofs.«426005_j69630009803062_3_alg».proof.Proof.GroupCorr
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.GroupCorr

variable (m : (ℓ : Loc nD τ sig) → Buf (Elt Ideal) ℓ)

/-- The launch arrays of core c: X1, X2, Y, W and the label words. -/
abbrev aX1 (c : Dev nD) : (⟨S1000000x82, .f32⟩ : BufTy).Contents (Elt Ideal) := m ((c.tc : Thread nD τ).loc main_arg0)
abbrev aX2 (c : Dev nD) : (⟨S1000000x82, .f32⟩ : BufTy).Contents (Elt Ideal) := m ((c.tc : Thread nD τ).loc main_arg1)
abbrev aY (c : Dev nD) : (⟨S1000000, .f32⟩ : BufTy).Contents (Elt Ideal) := m ((c.tc : Thread nD τ).loc main_arg2)
abbrev aW (c : Dev nD) : (⟨S1x82, .f32⟩ : BufTy).Contents (Elt Ideal) := m ((c.tc : Thread nD τ).loc main_arg3)
abbrev aMk (c : Dev nD) : (⟨S1000000, .i32⟩ : BufTy).Contents (Elt Ideal) := m ((c.tc : Thread nD τ).loc main_arg4)

/-! ## The arrays as the host operations' terms -/

/-- The weight column is the weight row transposed. -/
theorem V_wt_term (c : Dev nD) :
    (V (F := Ideal) m c main_v0 : S82x1.Idx → EReal) = transpose S82x1 [1, 0] (aW m c) transposes_S1x82_S82x1_1_0 := by
  show StableHlo.after hostOps0 (fun b => m (c, b)) (Proc.devRef .tc main_v0) = _
  after_results

/-- The one-entry array is the root of twice the sum of the weights, the sum taken from zero, reshaped to [1, 1]. -/
theorem V_shift_term (c : Dev nD) :
    (V (F := Ideal) m c main_v4 : S1x1.Idx → EReal) =
      shapeCast S1x1 (Host.sqrt (F := Ideal) (mulf (constant (F := Ideal) S_ .f32 0x40000000#32)
        (Host.reduceAdd (F := Ideal) (aW m c) (constant (F := Ideal) S_ .f32 0x00000000#32) reducesTo_S1x82_S_d0_1 h_S_)))
        shapeCasts_S_S1x1 := by
  show StableHlo.after hostOps0 (fun b => m (c, b)) (Proc.devRef .tc main_v4) = _
  after_results
  rfl

/-- The target cut into tiles is the target reshaped to [125, 1, 8000]. -/
theorem V_y_term (c : Dev nD) :
    (V (F := Ideal) m c main_v5 : S125x1x8000.Idx → EReal)
      = shapeCast S125x1x8000 (aY m c) shapeCasts_S1000000_S125x1x8000 := by
  show StableHlo.after hostOps0 (fun b => m (c, b)) (Proc.devRef .tc main_v5) = _
  after_results
  rfl

/-- The label column is the labels reshaped to [1000000, 1]. -/
theorem V_mk_term (c : Dev nD) :
    (V (F := Ideal) m c main_v6 : S1000000x1.Idx → BitVec 32)
      = shapeCast S1000000x1 (aMk m c) shapeCasts_S1000000_S1000000x1 := by
  show StableHlo.after hostOps0 (fun b => m (c, b)) (Proc.devRef .tc main_v6) = _
  after_results
  rfl

/-! ## Read at an index -/

/-- A rank-0 array reshaped to [1, 1] reads its one element: the rank-0 index set has one member. -/
theorem shapeCast_scalar_11 (X : S_.Idx → EReal) :
    shapeCast S1x1 X shapeCasts_S_S1x1 (ix2 (0 : Fin 1) (0 : Fin 1)) = X ix0 := by
  unfold shapeCast
  exact congrArg X (funext fun a => a.elim0)

/-- The weight column at d is the weight row at d. -/
theorem V_wt (c : Dev nD) (d : Fin 82) :
    (V (F := Ideal) m c main_v0 : S82x1.Idx → EReal) (ix2 d (0 : Fin 1)) = aW m c (ix2 (0 : Fin 1) d) := by
  rw [V_wt_term]
  exact transpose_ix2_apply (aW m c) transposes_S1x82_S82x1_1_0 d (0 : Fin 1)

/-- The one-entry array holds the shift of the weights. -/
theorem V_shift (c : Dev nD) :
    (V (F := Ideal) m c main_v4 : S1x1.Idx → EReal) (ix2 (0 : Fin 1) (0 : Fin 1)) = shift (aW m c) := by
  rw [V_shift_term, shapeCast_scalar_11]
  -- the root, the product and the two constants read at the one index; the sum over both axes from its initial value
  show Ideal.sqrt (Ideal.ofBits .f32 0x40000000#32
      * Ideal.hostReduceAdd reducesTo_S1x82_S_d0_1 (aW m c) (Ideal.ofBits .f32 0x00000000#32) ix0) = _
  -- every axis is summed: the initial value 0 plus the sum over all (0, d), the row axis having the one coordinate
  rw [Ideal.hostReduceAdd_total reducesTo_S1x82_S_d0_1 (fun b => b.elim0), zero_f32, zero_add, sum_idx2,
    Fin.sum_univ_one]
  rfl

/-- The target cut into tiles holds, at (i, 0, j), the target of row j of tile i. -/
theorem V_y (c : Dev nD) (i : Fin 125) (j : Fin 8000) :
    (V (F := Ideal) m c main_v5 : S125x1x8000.Idx → EReal) (ix3 i (0 : Fin 1) j) = aY m c (ix1 (tileRow i j)) := by
  rw [V_y_term]
  -- (i, 0, j) of [125, 1, 8000] and i * 8000 + j of [1000000] are the same row-major position
  refine shapeCast_apply (aY m c) shapeCasts_S1000000_S125x1x8000 _ (ix1 (tileRow i j)) ?_
  rw [Shape.rowMajor_val_one, Shape.rowMajor_val_three]
  show i.val * 8000 + j.val = (i.val * 1 + 0) * 8000 + j.val
  omega

/-- The label column holds, at (t, 0), the label word of row t. -/
theorem V_mk (c : Dev nD) (t : Fin 1000000) :
    (V (F := Ideal) m c main_v6 : S1000000x1.Idx → BitVec 32) (ix2 t (0 : Fin 1)) = aMk m c (ix1 t) := by
  rw [V_mk_term]
  -- (t, 0) of [1000000, 1] and t of [1000000] are the same row-major position
  refine shapeCast_apply (aMk m c) shapeCasts_S1000000_S1000000x1 _ (ix1 t) ?_
  rw [Shape.rowMajor_val_one, Shape.rowMajor_val_two]
  show t.val = t.val * 1 + 0
  omega

end Cert.KernelIdeal.Blocks

end
-- ==== Proof.KerBlocks.lean ====
/-
  The two arrays the region writes, after the run, as functions of the launch arrays: tile i of the first holds the
  distances of the tile's rows, tile i of the second the tile's shares of the six raw moments of every label.

  The grid has 125 points; point t stages rows 8000 t … 8000 t + 7999 of the two feature arrays, of the target and of
  the labels, the whole weight column and the one-entry shift, and writes back tile t of each written array. So each
  staged block is read where the tile's row sits in its array (block index times block size plus the coordinate inside
  the block), the body's two stored values become the distance of row 8000 t + j and the tile's moment shares, and since
  tile i is written by point i the 125 write-backs cover each written array.
-/
import proofs.«426005_j69630009803062_3_alg».proof.Proof.Gen.KernelIdeal.Frame
import proofs.«426005_j69630009803062_3_alg».proof.Proof.KerPay
import proofs.«426005_j69630009803062_3_alg».proof.Proof.KerHead
import proofs.«426005_j69630009803062_3_alg».proof.Proof.GroupCorr
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.GroupCorr Cert.KernelIdeal.Pay

variable (m : (ℓ : Loc nD τ sig) → Buf (Elt Ideal) ℓ)

/-! The steps below live in a namespace of their own; only the two whole-array theorems at the end are stated outside it. -/
namespace Tile

/-- The zero offsets of a rank-2 and of a rank-3 whole-buffer rectangle. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The index maps over the grid: the feature, target, label and written windows sit at block t on their
    first axis and block 0 elsewhere; the weight column and the shift sit at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The grid has 125 points. -/
theorem N_eq : cfg0.N = 125 := by decide +kernel

/-! ## Each staged block, read where the tile's row sits in its array -/

/-- The first feature block at point t, at (x0, x1), is X1 at row 8000 t + x0, column x1. -/
theorem blkX1_at (c : Dev nD) (t : Fin cfg0.N) (x : S8000x82.Idx) (k : S1000000x82.Idx)
    (hk0 : (k 0).val = t.val * 8000 + (x 0).val) (hk1 : (k 1).val = (x 1).val) :
    (iblk (F := Ideal) m c 0 t : Vec Ideal S8000x82 .f32) x = aX1 m c k := by
  obtain ⟨e0, e1, -⟩ := idx_facts t
  unfold iblk
  rw [View.read_apply]
  show V (F := Ideal) m c main_arg0 _ = aX1 m c k
  rw [V_main_arg0]
  show aX1 m c _ = aX1 m c k
  congr 1
  funext a
  apply Fin.ext
  match a with
  | ⟨0, _⟩ => show win0_0.index t (0 : Fin 2) * 8000 + 1 * (x 0).val = (k 0).val; omega
  | ⟨1, _⟩ => show win0_0.index t (1 : Fin 2) * 82 + 1 * (x 1).val = (k 1).val; omega

/-- The second feature block at point t, at (x0, x1), is X2 at row 8000 t + x0, column x1. -/
theorem blkX2_at (c : Dev nD) (t : Fin cfg0.N) (x : S8000x82.Idx) (k : S1000000x82.Idx)
    (hk0 : (k 0).val = t.val * 8000 + (x 0).val) (hk1 : (k 1).val = (x 1).val) :
    (iblk (F := Ideal) m c 1 t : Vec Ideal S8000x82 .f32) x = aX2 m c k := by
  obtain ⟨-, -, e0, e1, -⟩ := idx_facts t
  unfold iblk
  rw [View.read_apply]
  show V (F := Ideal) m c main_arg1 _ = aX2 m c k
  rw [V_main_arg1]
  show aX2 m c _ = aX2 m c k
  congr 1
  funext a
  apply Fin.ext
  match a with
  | ⟨0, _⟩ => show win0_1.index t (0 : Fin 2) * 8000 + 1 * (x 0).val = (k 0).val; omega
  | ⟨1, _⟩ => show win0_1.index t (1 : Fin 2) * 82 + 1 * (x 1).val = (k 1).val; omega

/-- The weight block at any point is the whole weight column: at (d, 0) the weight of feature d. -/
theorem blkW_at (c : Dev nD) (t : Fin cfg0.N) (d : Fin 82) :
    (iblk (F := Ideal) m c 2 t : Vec Ideal S82x1 .f32) (ix2 d (0 : Fin 1)) = aW m c (ix2 (0 : Fin 1) d) := by
  obtain ⟨-, -, -, -, e0, e1, -⟩ := idx_facts t
  unfold iblk
  rw [View.read_apply]
  show (V (F := Ideal) m c main_v0 : S82x1.Idx → EReal) _ = aW m c (ix2 (0 : Fin 1) d)
  refine Eq.trans ?_ (V_wt m c d)
  congr 1
  funext a
  apply Fin.ext
  match a with
  | ⟨0, _⟩ => show win0_2.index t (0 : Fin 2) * 82 + 1 * d.val = d.val; omega
  | ⟨1, _⟩ => show win0_2.index t (1 : Fin 2) * 1 + 1 * 0 = 0; omega

/-- The target block at point t, at (0, 0, j), is the target of row j of tile t. -/
theorem blkY_at (c : Dev nD) (t : Fin cfg0.N) (i : Fin 125) (hi : i.val = t.val) (j : Fin 8000) :
    (iblk (F := Ideal) m c 3 t : Vec Ideal S1x1x8000 .f32) (ix3 (0 : Fin 1) (0 : Fin 1) j)
      = aY m c (ix1 (tileRow i j)) := by
  obtain ⟨-, -, -, -, -, -, e0, e1, e2, -⟩ := idx_facts t
  unfold iblk
  rw [View.read_apply]
  show (V (F := Ideal) m c main_v5 : S125x1x8000.Idx → EReal) _ = aY m c (ix1 (tileRow i j))
  refine Eq.trans ?_ (V_y m c i j)
  congr 1
  funext a
  apply Fin.ext
  match a with
  | ⟨0, _⟩ => show win0_3.index t (0 : Fin 3) * 1 + 1 * 0 = i.val; omega
  | ⟨1, _⟩ => show win0_3.index t (1 : Fin 3) * 1 + 1 * 0 = 0; omega
  | ⟨2, _⟩ => show win0_3.index t (2 : Fin 3) * 8000 + 1 * j.val = j.val; omega

/-- The label block at point t, at (j, 0), is the label word of row j of tile t. -/
theorem blkMk_at (c : Dev nD) (t : Fin cfg0.N) (i : Fin 125) (hi : i.val = t.val) (j : Fin 8000) :
    (iblk (F := Ideal) m c 4 t : Vec Ideal S8000x1 .i32) (ix2 j (0 : Fin 1)) = aMk m c (ix1 (tileRow i j)) := by
  obtain ⟨-, -, -, -, -, -, -, -, -, e0, e1, -⟩ := idx_facts t
  unfold iblk
  rw [View.read_apply]
  show (V (F := Ideal) m c main_v6 : S1000000x1.Idx → BitVec 32) _ = aMk m c (ix1 (tileRow i j))
  refine Eq.trans ?_ (V_mk m c (tileRow i j))
  congr 1
  funext a
  apply Fin.ext
  match a with
  | ⟨0, _⟩ => show win0_4.index t (0 : Fin 2) * 8000 + 1 * j.val = i.val * 8000 + j.val; omega
  | ⟨1, _⟩ => show win0_4.index t (1 : Fin 2) * 1 + 1 * 0 = 0; omega

/-- The one-entry block at any point holds the shift of the weights. -/
theorem blkShift_at (c : Dev nD) (t : Fin cfg0.N) :
    (iblk (F := Ideal) m c 5 t : Vec Ideal S1x1 .f32) (ix2 (0 : Fin 1) (0 : Fin 1)) = shift (aW m c) := by
  obtain ⟨-, -, -, -, -, -, -, -, -, -, -, e0, e1, -⟩ := idx_facts t
  unfold iblk
  rw [View.read_apply]
  show (V (F := Ideal) m c main_v4 : S1x1.Idx → EReal) _ = shift (aW m c)
  refine Eq.trans ?_ (V_shift m c)
  congr 1
  funext a
  apply Fin.ext
  match a with
  | ⟨0, _⟩ => show win0_5.index t (0 : Fin 2) * 1 + 1 * 0 = 0; omega
  | ⟨1, _⟩ => show win0_5.index t (1 : Fin 2) * 1 + 1 * 0 = 0; omega

/-! ## The body's two stored values over blocks that hold a tile's rows -/

/-- Over blocks holding row r of the arrays at their row j (and the weight column), the body's distance of row j is
    the distance of row r. -/
theorem rowDist_tile (X1 X2 : S1000000x82.Idx → EReal) (W : S1x82.Idx → EReal)
    (v0 v1 : S8000x82.Idx → EReal) (v4 : S82x1.Idx → EReal) (r : Fin 1000000) (j : Fin 8000)
    (h0 : ∀ d : Fin 82, v0 (ix2 j d) = X1 (ix2 r d)) (h1 : ∀ d : Fin 82, v1 (ix2 j d) = X2 (ix2 r d))
    (h4 : ∀ d : Fin 82, v4 (ix2 d (0 : Fin 1)) = W (ix2 (0 : Fin 1) d)) :
    rowDist v0 v1 v4 j = dist X1 X2 W r := by
  unfold rowDist Cert.GroupCorr.dist
  simp only [h0, h1, h4]

/-- Over blocks holding tile i, the first stored value at lane j is the distance of row j of tile i. -/
theorem pay2_tile (X1 X2 : S1000000x82.Idx → EReal) (W : S1x82.Idx → EReal)
    (v0 v1 : Vec Ideal S8000x82 .f32) (v4 : Vec Ideal S82x1 .f32) (i : Fin 125)
    (h0 : ∀ (j : Fin 8000) (d : Fin 82), v0 (ix2 j d) = X1 (ix2 (tileRow i j) d))
    (h1 : ∀ (j : Fin 8000) (d : Fin 82), v1 (ix2 j d) = X2 (ix2 (tileRow i j) d))
    (h4 : ∀ d : Fin 82, v4 (ix2 d (0 : Fin 1)) = W (ix2 (0 : Fin 1) d)) (j : Fin 8000) :
    k0_pay2 (F := Ideal) v0 v1 v4 (ix3 (0 : Fin 1) (0 : Fin 1) j) = dist X1 X2 W (tileRow i j) := by
  rw [pay2_apply]
  exact rowDist_tile X1 X2 W v0 v1 v4 (tileRow i j) j (h0 j) (h1 j) h4

/-- Over blocks holding tile i, the second stored value at (k, g) is tile i's share of moment k of label g. -/
theorem pay3_tile (X1 X2 : S1000000x82.Idx → EReal) (W : S1x82.Idx → EReal) (Y : Fin 1000000 → EReal) (s : EReal)
    (mk : S1000000.Idx → BitVec 32)
    (v0 v1 : Vec Ideal S8000x82 .f32) (v4 : Vec Ideal S82x1 .f32) (v12 : Vec Ideal S1x1 .f32)
    (v16 : Vec Ideal S1x1x8000 .f32) (v18 : Vec Ideal S8000x1 .i32) (i : Fin 125)
    (h0 : ∀ (j : Fin 8000) (d : Fin 82), v0 (ix2 j d) = X1 (ix2 (tileRow i j) d))
    (h1 : ∀ (j : Fin 8000) (d : Fin 82), v1 (ix2 j d) = X2 (ix2 (tileRow i j) d))
    (h4 : ∀ d : Fin 82, v4 (ix2 d (0 : Fin 1)) = W (ix2 (0 : Fin 1) d))
    (h12 : v12 (ix2 (0 : Fin 1) (0 : Fin 1)) = s)
    (h16 : ∀ j : Fin 8000, v16 (ix3 (0 : Fin 1) (0 : Fin 1) j) = Y (tileRow i j))
    (h18 : ∀ j : Fin 8000, v18 (ix2 j (0 : Fin 1)) = mk (ix1 (tileRow i j))) (k : Fin 6) (g : Fin 256) :
    k0_pay3 (F := Ideal) v0 v1 v4 v12 v16 v18 (ix3 (0 : Fin 1) k g) = tileMom (dist X1 X2 W) Y s mk i k g := by
  rw [pay3_apply]
  unfold tileMom momRow
  refine Finset.sum_congr rfl fun j _ => ?_
  rw [rowDist_tile X1 X2 W v0 v1 v4 (tileRow i j) j (h0 j) (h1 j) h4, h12, h16 j, h18 j]

/-! ## What each point writes back -/

/-- A point of the grid is below 125. -/
theorem pt_lt (t : Fin cfg0.N) : t.val < 125 := lt_of_lt_of_eq t.isLt N_eq

/-- POINT t WRITES BACK TILE t OF THE DISTANCES: its block of the first written array is the block of the function
    (i, 0, j) ↦ distance of row j of tile i. -/
theorem flushed6_eq (c : Dev nD) (t : Fin cfg0.N) :
    (dats (F := Ideal) m 0 c).flushed 6 t = ((cfg0.win 6).blk t).view.read (Elt Ideal)
      (fun i : S125x1x8000.Idx => Cert.GroupCorr.dist (aX1 m c) (aX2 m c) (aW m c) (tileRow (i 0) (i 2))) := by
  show (cfg0.win 6).cut (grid0.coords t) ((dats (F := Ideal) m 0 c).after 6 t) = _
  rw [after0_6]
  unfold out0_6
  rw [View.canon_unit_zero zero3]
  simp only [View.ld_unit_zero (S := S8000x82) zero2, View.ld_unit_zero (S := S82x1) zero2]
  funext y
  rw [View.read_apply]
  show k0_pay2 (F := Ideal) (iblk m c 0 t) (iblk m c 1 t) (iblk m c 2 t) y
    = Cert.GroupCorr.dist (aX1 m c) (aX2 m c) (aW m c)
        (tileRow ((((cfg0.win 6).blk t).view.emb y) 0) ((((cfg0.win 6).blk t).view.emb y) 2))
  obtain ⟨-, -, -, -, -, -, -, -, -, -, -, -, -, e0, e1, e2, -⟩ := idx_facts t
  have hy0 : (y 0).val < 1 := (y 0).isLt
  have hy1 : (y 1).val < 1 := (y 1).isLt
  -- the block's element (0, 0, j) sits at (t, 0, j) of the array
  have hr : tileRow ((((cfg0.win 6).blk t).view.emb y) 0) ((((cfg0.win 6).blk t).view.emb y) 2)
      = tileRow ⟨t.val, pt_lt t⟩ (y 2) := by
    apply Fin.ext
    show (win0_6.index t (0 : Fin 3) * 1 + 1 * (y 0).val) * 8000 + (win0_6.index t (2 : Fin 3) * 8000 + 1 * (y 2).val)
      = t.val * 8000 + (y 2).val
    omega
  have hy : y = ix3 (0 : Fin 1) (0 : Fin 1) (y 2) := by
    funext a
    apply Fin.ext
    match a with
    | ⟨0, _⟩ => show (y 0).val = 0; omega
    | ⟨1, _⟩ => show (y 1).val = 0; omega
    | ⟨2, _⟩ => rfl
  rw [hr]
  refine (congrArg (k0_pay2 (F := Ideal) (iblk m c 0 t) (iblk m c 1 t) (iblk m c 2 t)) hy).trans ?_
  exact pay2_tile (aX1 m c) (aX2 m c) (aW m c) (iblk m c 0 t) (iblk m c 1 t) (iblk m c 2 t) ⟨t.val, pt_lt t⟩
    (fun j d => blkX1_at m c t (ix2 j d) (ix2 (tileRow ⟨t.val, pt_lt t⟩ j) d) rfl rfl)
    (fun j d => blkX2_at m c t (ix2 j d) (ix2 (tileRow ⟨t.val, pt_lt t⟩ j) d) rfl rfl)
    (fun d => blkW_at m c t d) (y 2)

/-- POINT t WRITES BACK TILE t OF THE MOMENT SHARES: its block of the second written array is the block of the
    function (i, k, g) ↦ tile i's share of moment k of label g. -/
theorem flushed7_eq (c : Dev nD) (t : Fin cfg0.N) :
    (dats (F := Ideal) m 0 c).flushed 7 t = ((cfg0.win 7).blk t).view.read (Elt Ideal)
      (fun i : S125x6x256.Idx => tileMom (Cert.GroupCorr.dist (aX1 m c) (aX2 m c) (aW m c)) (fun r => aY m c (ix1 r))
        (shift (aW m c)) (aMk m c) (i 0) (i 1) (i 2)) := by
  show (cfg0.win 7).cut (grid0.coords t) ((dats (F := Ideal) m 0 c).after 7 t) = _
  rw [after0_7]
  unfold out0_7
  rw [View.canon_unit_zero zero3]
  simp only [View.ld_unit_zero (S := S8000x82) zero2, View.ld_unit_zero (S := S82x1) zero2,
    View.ld_unit_zero (S := S1x1) zero2, View.ld_unit_zero (S := S1x1x8000) zero3,
    View.ld_unit_zero (S := S8000x1) zero2]
  funext y
  rw [View.read_apply]
  show k0_pay3 (F := Ideal) (iblk m c 0 t) (iblk m c 1 t) (iblk m c 2 t) (iblk m c 5 t) (iblk m c 3 t) (iblk m c 4 t) y
    = tileMom (Cert.GroupCorr.dist (aX1 m c) (aX2 m c) (aW m c)) (fun r => aY m c (ix1 r)) (shift (aW m c)) (aMk m c)
        ((((cfg0.win 7).blk t).view.emb y) 0) ((((cfg0.win 7).blk t).view.emb y) 1) ((((cfg0.win 7).blk t).view.emb y) 2)
  obtain ⟨-, -, -, -, -, -, -, -, -, -, -, -, -, -, -, -, e0, e1, e2⟩ := idx_facts t
  have hy0 : (y 0).val < 1 := (y 0).isLt
  -- the block's element (0, k, g) sits at (t, k, g) of the array
  have h0 : (((cfg0.win 7).blk t).view.emb y) 0 = (⟨t.val, pt_lt t⟩ : Fin 125) := by
    apply Fin.ext
    show win0_7.index t (0 : Fin 3) * 1 + 1 * (y 0).val = t.val
    omega
  have h1 : (((cfg0.win 7).blk t).view.emb y) 1 = (y 1 : Fin 6) := by
    apply Fin.ext
    show win0_7.index t (1 : Fin 3) * 6 + 1 * (y 1).val = (y 1).val
    omega
  have h2 : (((cfg0.win 7).blk t).view.emb y) 2 = (y 2 : Fin 256) := by
    apply Fin.ext
    show win0_7.index t (2 : Fin 3) * 256 + 1 * (y 2).val = (y 2).val
    omega
  have hy : y = ix3 (0 : Fin 1) (y 1 : Fin 6) (y 2 : Fin 256) := by
    funext a
    apply Fin.ext
    match a with
    | ⟨0, _⟩ => show (y 0).val = 0; omega
    | ⟨1, _⟩ => rfl
    | ⟨2, _⟩ => rfl
  rw [h0, h1, h2]
  refine (congrArg (k0_pay3 (F := Ideal) (iblk m c 0 t) (iblk m c 1 t) (iblk m c 2 t) (iblk m c 5 t) (iblk m c 3 t)
    (iblk m c 4 t)) hy).trans ?_
  exact pay3_tile (aX1 m c) (aX2 m c) (aW m c) (fun r => aY m c (ix1 r)) (shift (aW m c)) (aMk m c)
    (iblk m c 0 t) (iblk m c 1 t) (iblk m c 2 t) (iblk m c 5 t) (iblk m c 3 t) (iblk m c 4 t) ⟨t.val, pt_lt t⟩
    (fun j d => blkX1_at m c t (ix2 j d) (ix2 (tileRow ⟨t.val, pt_lt t⟩ j) d) rfl rfl)
    (fun j d => blkX2_at m c t (ix2 j d) (ix2 (tileRow ⟨t.val, pt_lt t⟩ j) d) rfl rfl)
    (fun d => blkW_at m c t d) (blkShift_at m c t)
    (fun j => blkY_at m c t ⟨t.val, pt_lt t⟩ rfl j) (fun j => blkMk_at m c t ⟨t.val, pt_lt t⟩ rfl j) (y 1) (y 2)

/-! ## The write-backs cover each written array: tile i is point i's block -/

/-- An index of the first written array is in point t's block iff each coordinate is in the block's range. -/
theorem mem_blk6 (t : Fin cfg0.N) (i : S125x1x8000.Idx) :
    i ∈ ((cfg0.win 6).blk t).view.set ↔ ∀ a : Fin 3, win0_6.index t a * S1x1x8000.size a ≤ (i a).val
      ∧ (i a).val < win0_6.index t a * S1x1x8000.size a + S1x1x8000.size a := by
  show i ∈ ((View.whole main_v7_0).slice (win0_6.rect t)).set ↔ _
  rw [View.set_slice_whole, Rect.mem_set_unit]
  exact Iff.rfl

/-- An index of the second written array is in point t's block iff each coordinate is in the block's range. -/
theorem mem_blk7 (t : Fin cfg0.N) (i : S125x6x256.Idx) :
    i ∈ ((cfg0.win 7).blk t).view.set ↔ ∀ a : Fin 3, win0_7.index t a * S1x6x256.size a ≤ (i a).val
      ∧ (i a).val < win0_7.index t a * S1x6x256.size a + S1x6x256.size a := by
  show i ∈ ((View.whole main_v7_1).slice (win0_7.rect t)).set ↔ _
  rw [View.set_slice_whole, Rect.mem_set_unit]
  exact Iff.rfl

/-- Index (i, 0, j) of the first written array is in the block of point i, which writes back. -/
theorem cover6 (i : S125x1x8000.Idx) :
    ∃ t : Fin cfg0.N, (cfg0.win 6).flush t = true ∧ i ∈ ((cfg0.win 6).blk t).view.set := by
  have hi0 : (i 0).val < 125 := (i 0).isLt
  have hi1 : (i 1).val < 1 := (i 1).isLt
  have hi2 : (i 2).val < 8000 := (i 2).isLt
  have hN : (i 0).val < cfg0.N := by rw [N_eq]; exact hi0
  refine ⟨⟨(i 0).val, hN⟩, flush0_6 _, ?_⟩
  rw [mem_blk6]
  obtain ⟨-, -, -, -, -, -, -, -, -, -, -, -, -, e0, e1, e2, -⟩ := idx_facts ⟨(i 0).val, hN⟩
  have e0' : win0_6.index ⟨(i 0).val, hN⟩ (0 : Fin 3) = (i 0).val := e0
  intro a
  match a with
  | ⟨0, _⟩ => show win0_6.index ⟨(i 0).val, hN⟩ (0 : Fin 3) * 1 ≤ (i 0).val ∧ (i 0).val < win0_6.index ⟨(i 0).val, hN⟩ (0 : Fin 3) * 1 + 1; omega
  | ⟨1, _⟩ => show win0_6.index ⟨(i 0).val, hN⟩ (1 : Fin 3) * 1 ≤ (i 1).val ∧ (i 1).val < win0_6.index ⟨(i 0).val, hN⟩ (1 : Fin 3) * 1 + 1; omega
  | ⟨2, _⟩ => show win0_6.index ⟨(i 0).val, hN⟩ (2 : Fin 3) * 8000 ≤ (i 2).val ∧ (i 2).val < win0_6.index ⟨(i 0).val, hN⟩ (2 : Fin 3) * 8000 + 8000; omega

/-- Index (i, k, g) of the second written array is in the block of point i, which writes back. -/
theorem cover7 (i : S125x6x256.Idx) :
    ∃ t : Fin cfg0.N, (cfg0.win 7).flush t = true ∧ i ∈ ((cfg0.win 7).blk t).view.set := by
  have hi0 : (i 0).val < 125 := (i 0).isLt
  have hi1 : (i 1).val < 6 := (i 1).isLt
  have hi2 : (i 2).val < 256 := (i 2).isLt
  have hN : (i 0).val < cfg0.N := by rw [N_eq]; exact hi0
  refine ⟨⟨(i 0).val, hN⟩, flush0_7 _, ?_⟩
  rw [mem_blk7]
  obtain ⟨-, -, -, -, -, -, -, -, -, -, -, -, -, -, -, -, e0, e1, e2⟩ := idx_facts ⟨(i 0).val, hN⟩
  have e0' : win0_7.index ⟨(i 0).val, hN⟩ (0 : Fin 3) = (i 0).val := e0
  intro a
  match a with
  | ⟨0, _⟩ => show win0_7.index ⟨(i 0).val, hN⟩ (0 : Fin 3) * 1 ≤ (i 0).val ∧ (i 0).val < win0_7.index ⟨(i 0).val, hN⟩ (0 : Fin 3) * 1 + 1; omega
  | ⟨1, _⟩ => show win0_7.index ⟨(i 0).val, hN⟩ (1 : Fin 3) * 6 ≤ (i 1).val ∧ (i 1).val < win0_7.index ⟨(i 0).val, hN⟩ (1 : Fin 3) * 6 + 6; omega
  | ⟨2, _⟩ => show win0_7.index ⟨(i 0).val, hN⟩ (2 : Fin 3) * 256 ≤ (i 2).val ∧ (i 2).val < win0_7.index ⟨(i 0).val, hN⟩ (2 : Fin 3) * 256 + 256; omega

end Tile

/-! ## The two written arrays after the run -/

/-- The first written array: at (i, 0, j) the distance of row j of tile i. -/
theorem arr6 (c : Dev nD) : (dats (F := Ideal) m 0 c).arrAt 6 cfg0.N
    = fun i : S125x1x8000.Idx => dist (aX1 m c) (aX2 m c) (aW m c) (tileRow (i 0) (i 2)) :=
  (dats (F := Ideal) m 0 c).arrAt_eq_of_cover 6
    (fun i : S125x1x8000.Idx => Cert.GroupCorr.dist (aX1 m c) (aX2 m c) (aW m c) (tileRow (i 0) (i 2)))
    (fun t _ => Tile.flushed6_eq m c t) Tile.cover6

/-- The second written array: at (i, k, g) tile i's share of moment k of label g, about the shift of the weights. -/
theorem arr7 (c : Dev nD) : (dats (F := Ideal) m 0 c).arrAt 7 cfg0.N
    = fun i : S125x6x256.Idx => tileMom (dist (aX1 m c) (aX2 m c) (aW m c)) (fun t => aY m c (ix1 t))
        (shift (aW m c)) (aMk m c) (i 0) (i 1) (i 2) :=
  (dats (F := Ideal) m 0 c).arrAt_eq_of_cover 7
    (fun i : S125x6x256.Idx => tileMom (Cert.GroupCorr.dist (aX1 m c) (aX2 m c) (aW m c)) (fun t => aY m c (ix1 t))
        (shift (aW m c)) (aMk m c) (i 0) (i 1) (i 2))
    (fun t _ => Tile.flushed7_eq m c t) Tile.cover7

end Cert.KernelIdeal.Blocks

end
-- ==== Proof.KerRun.lean ====
/-
  The kernel program's two results. After the region the host reshapes the first written array to a column (the
  distances, row by row) and, from the second, adds the 125 tiles' shares of each raw moment, cuts out the six moment
  rows, forms each label's raw-moment term and takes the mean over the labels. The tiles' shares add up to the group
  sums, so the first result is the mean of the raw-moment form about the shift of the weights.
-/
import proofs.«426005_j69630009803062_3_alg».proof.Proof.Gen.KernelIdeal.Frame
import proofs.«426005_j69630009803062_3_alg».proof.Proof.KerBlocks
import proofs.«426005_j69630009803062_3_alg».proof.Proof.TileSums
import proofs.«426005_j69630009803062_3_alg».proof.Proof.LibHostIndex
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx Cert.GroupCorr Cert.KernelIdeal.Blocks

/-! ## The host operations after the region, as functions of the two written arrays -/

/-- The sum over the 125 tiles of an array of tile shares, at moment k and label g. -/
def colMom (A : S125x6x256.Idx → EReal) (k : Fin 6) (g : Fin 256) : EReal := ∑ i : Fin 125, A (ix3 i k g)

/-- The tiles' shares added up: the host's sum over the tile axis, from zero. -/
def tileSum (A : S125x6x256.Idx → EReal) : S6x256.Idx → EReal :=
  Host.reduceAdd (F := Ideal) A (constant (F := Ideal) S_ .f32 0x00000000#32) reducesTo_S125x6x256_S6x256_d0 h_S_

/-- The six moment rows cut out of the summed shares, each as a vector over the labels. -/
def momVec (A : S125x6x256.Idx → EReal) : Fin 6 → S256.Idx → EReal
  | 0 => shapeCast S256 (extractStridedSlice S1x256 ![0, 0] (tileSum A) slices_S6x256_S1x256_0_0) shapeCasts_S1x256_S256
  | 1 => shapeCast S256 (extractStridedSlice S1x256 ![1, 0] (tileSum A) slices_S6x256_S1x256_1_0) shapeCasts_S1x256_S256
  | 2 => shapeCast S256 (extractStridedSlice S1x256 ![2, 0] (tileSum A) slices_S6x256_S1x256_2_0) shapeCasts_S1x256_S256
  | 3 => shapeCast S256 (extractStridedSlice S1x256 ![3, 0] (tileSum A) slices_S6x256_S1x256_3_0) shapeCasts_S1x256_S256
  | 4 => shapeCast S256 (extractStridedSlice S1x256 ![4, 0] (tileSum A) slices_S6x256_S1x256_4_0) shapeCasts_S1x256_S256
  | 5 => shapeCast S256 (extractStridedSlice S1x256 ![5, 0] (tileSum A) slices_S6x256_S1x256_5_0) shapeCasts_S1x256_S256

/-- Each label's raw-moment term from six moment vectors, as the host computes it. -/
def termVec (M : Fin 6 → S256.Idx → EReal) : S256.Idx → EReal :=
  Host.absf (F := Ideal)
    (Host.divf (subf (M 5) (Host.divf (mulf (M 1) (M 2)) (M 0)))
      (Host.sqrt
        (mulf
          (maximumf (subf (M 3) (Host.divf (mulf (M 1) (M 1)) (M 0)))
            (broadcastInDim S256 ![] bcast_S_S256 (constant (F := Ideal) S_ .f32 0x00000000#32)))
          (maximumf (subf (M 4) (Host.divf (mulf (M 2) (M 2)) (M 0)))
            (broadcastInDim S256 ![] bcast_S_S256 (constant (F := Ideal) S_ .f32 0x00000000#32))))))

/-- The first result from the array of tile shares: the mean over the labels of the terms. -/
def coeffOf (A : S125x6x256.Idx → EReal) : S_.Idx → EReal :=
  Host.divf (F := Ideal)
    (Host.reduceAdd (F := Ideal) (termVec (momVec A)) (constant (F := Ideal) S_ .f32 0x00000000#32) reducesTo_S256_S_d0 h_S_)
    (constant (F := Ideal) S_ .f32 0x43800000#32)

set_option maxHeartbeats 4000000 in
/-- The host operations after the region leave, as the first result, coeffOf of the second written array. -/
theorem tail_coeff (Vt : Valuation τ sig (Elt Ideal)) :
    StableHlo.after (hostOps1 (F := Ideal)) Vt (Proc.devRef .tc main_v40) = coeffOf (Vt (Proc.devRef .tc main_v7_1)) := by
  after_results
  rfl

/-- … and, as the second result, the first written array reshaped to a column. -/
theorem tail_pred (Vt : Valuation τ sig (Elt Ideal)) :
    StableHlo.after (hostOps1 (F := Ideal)) Vt (Proc.devRef .tc main_v8)
      = shapeCast S1000000x1 (Vt (Proc.devRef .tc main_v7_0)) shapeCasts_S125x1x8000_S1000000x1 := by
  after_results
  rfl

/-! ## The same, read at an index -/

/-- The summed shares at (k, g) are the sum over the tiles of the shares at (i, k, g). -/
theorem tileSum_apply (A : S125x6x256.Idx → EReal) (k : Fin 6) (g : Fin 256) : tileSum A (ix2 k g) = colMom A k g := by
  have hr : S125x6x256.Reduces [0] S6x256 := by decide
  show Ideal.hostReduceAdd reducesTo_S125x6x256_S6x256_d0 A (Ideal.ofBits .f32 0x00000000#32) (ix2 k g) = _
  rw [Ideal.hostReduceAdd_single reducesTo_S125x6x256_S6x256_d0 hr, zero_f32, zero_add]
  unfold colMom
  refine Finset.sum_congr rfl fun i _ => congrArg A (funext fun a => Fin.ext ?_)
  match a with
  | ⟨0, _⟩ => rfl
  | ⟨1, _⟩ => rfl
  | ⟨2, _⟩ => rfl

/-- Row k of a [6, 256] array, cut out as a [1, 256] slice at offset (o, 0) with o = k and flattened, at label g. -/
theorem row_apply (R : S6x256.Idx → EReal) (k : Fin 6) (o : Nat) (ho : o = k.val) (hs : S6x256.Slices ![o, 0] S1x256)
    (g : Fin 256) :
    shapeCast S256 (extractStridedSlice S1x256 ![o, 0] R hs) shapeCasts_S1x256_S256 (ix1 g) = R (ix2 k g) := by
  rw [shapeCast_1a_a_apply]
  refine extractStridedSlice_apply ![o, 0] R hs (ix2 (0 : Fin 1) g) (ix2 k g) fun a => ?_
  match a with
  | ⟨0, _⟩ =>
    show k.val = o + 0
    omega
  | ⟨1, _⟩ =>
    show g.val = 0 + g.val
    omega

/-- The moment vectors at label g are the tiles' shares added up. -/
theorem momVec_apply (A : S125x6x256.Idx → EReal) (k : Fin 6) (g : Fin 256) : momVec A k (ix1 g) = colMom A k g := by
  refine Eq.trans ?_ (tileSum_apply A k g)
  match k with
  | 0 => exact row_apply (tileSum A) 0 0 rfl slices_S6x256_S1x256_0_0 g
  | 1 => exact row_apply (tileSum A) 1 1 rfl slices_S6x256_S1x256_1_0 g
  | 2 => exact row_apply (tileSum A) 2 2 rfl slices_S6x256_S1x256_2_0 g
  | 3 => exact row_apply (tileSum A) 3 3 rfl slices_S6x256_S1x256_3_0 g
  | 4 => exact row_apply (tileSum A) 4 4 rfl slices_S6x256_S1x256_4_0 g
  | 5 => exact row_apply (tileSum A) 5 5 rfl slices_S6x256_S1x256_5_0 g

/-- The host's term at a label is the raw-moment form of the six moments there. -/
theorem termVec_apply (M : Fin 6 → S256.Idx → EReal) (j : S256.Idx) : termVec M j = momTerm fun k => M k j := by
  unfold momTerm
  show max (Ideal.div (M 5 j - Ideal.div (M 1 j * M 2 j) (M 0 j))
      (Ideal.sqrt (max (M 3 j - Ideal.div (M 1 j * M 1 j) (M 0 j)) (Ideal.ofBits .f32 0x00000000#32)
        * max (M 4 j - Ideal.div (M 2 j * M 2 j) (M 0 j)) (Ideal.ofBits .f32 0x00000000#32))))
    (-(Ideal.div (M 5 j - Ideal.div (M 1 j * M 2 j) (M 0 j))
      (Ideal.sqrt (max (M 3 j - Ideal.div (M 1 j * M 1 j) (M 0 j)) (Ideal.ofBits .f32 0x00000000#32)
        * max (M 4 j - Ideal.div (M 2 j * M 2 j) (M 0 j)) (Ideal.ofBits .f32 0x00000000#32))))) = _
  rw [zero_f32]

/-- The first result is the mean over the labels of the raw-moment form of the added-up shares. -/
theorem coeffOf_eq (A : S125x6x256.Idx → EReal) :
    coeffOf A = fun _ => mean256 fun g => momTerm fun k => colMom A k g := by
  funext i
  show Ideal.div (Ideal.hostReduceAdd reducesTo_S256_S_d0 (termVec (momVec A)) (Ideal.ofBits .f32 0x00000000#32) i)
    (Ideal.ofBits .f32 0x43800000#32) = _
  rw [Ideal.hostReduceAdd_total reducesTo_S256_S_d0 (fun b => b.elim0), zero_f32, zero_add]
  unfold mean256
  refine congrArg (fun s => Ideal.div s (Ideal.ofBits .f32 0x43800000#32)) ?_
  refine ((Cert.Lib.HostIndex.idxEquiv1 (n := 256)).symm.sum_comp (termVec (momVec A))).symm.trans ?_
  refine Finset.sum_congr rfl fun g _ => ?_
  show termVec (momVec A) (ix1 g) = _
  rw [termVec_apply]
  refine congrArg momTerm (funext fun k => ?_)
  exact momVec_apply A k g

end Cert.KernelIdeal.Run

end
-- ==== Proof.KerResults.lean ====
/-
  The kernel program's run with its two results named: the mean over the labels of the raw-moment form of the distances
  against the target, about the shift of the weights; and the column of the distances.
-/
import proofs.«426005_j69630009803062_3_alg».proof.Proof.KerRun

set_option maxRecDepth 16384

noncomputable section

open scoped BigOperators

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx Cert.GroupCorr Cert.KernelIdeal.Blocks

variable (m : (ℓ : Loc nD τ sig) → Buf (Elt Ideal) ℓ)

/-- The host operations after the region find the first written array as the run left it. -/
theorem written6 (c : Dev nD) :
    Pipeline.withArrays (cfgs 0).spec c (V0 m c) (fun w => (dats (F := Ideal) m 0 c).arrAt w (cfgs 0).N)
        (Proc.devRef .tc main_v7_0)
      = (dats (F := Ideal) m 0 c).arrAt 6 cfg0.N :=
  Pipeline.withArrays_arr spec0 launch0.win.arr_inj c _ _ 6

/-- … and the second. -/
theorem written7 (c : Dev nD) :
    Pipeline.withArrays (cfgs 0).spec c (V0 m c) (fun w => (dats (F := Ideal) m 0 c).arrAt w (cfgs 0).N)
        (Proc.devRef .tc main_v7_1)
      = (dats (F := Ideal) m 0 c).arrAt 7 cfg0.N :=
  Pipeline.withArrays_arr spec0 launch0.win.arr_inj c _ _ 7

/-- The first result: the tiles' shares of each raw moment add up to the group sums, so the host's mean of terms is the
    mean over the labels of the raw-moment form. -/
theorem res_coeff (c : Dev nD) :
    Pipeline.afterTail₀ cfgs (dats (F := Ideal) m) 0 (V0 m) [hostOps1] c main_v40
      = fun _ : S_.Idx => mean256 fun g => kerTerm (dist (aX1 m c) (aX2 m c) (aW m c)) (fun t => aY m c (ix1 t))
          (shift (aW m c)) (aMk m c) g := by
  unfold Pipeline.afterTail₀
  show StableHlo.after hostOps1 _ (Proc.devRef .tc main_v40) = _
  rw [tail_coeff, coeffOf_eq, written7, arr7]
  funext _
  refine congrArg mean256 (funext fun g => ?_)
  unfold kerTerm
  refine congrArg momTerm (funext fun k => ?_)
  exact sum_tileMom _ _ _ _ k g

/-- The second result: row t of the column is entry (t / 8000, 0, t % 8000) of the first written array, the distance of
    row t. -/
theorem res_pred (c : Dev nD) :
    Pipeline.afterTail₀ cfgs (dats (F := Ideal) m) 0 (V0 m) [hostOps1] c main_v8
      = fun i : S1000000x1.Idx => dist (aX1 m c) (aX2 m c) (aW m c) (i 0) := by
  unfold Pipeline.afterTail₀
  show StableHlo.after hostOps1 _ (Proc.devRef .tc main_v8) = _
  rw [tail_pred, written6, arr6]
  funext i
  obtain ⟨t, u, rfl⟩ : ∃ (t : Fin 1000000) (u : Fin 1), i = ix2 t u := ⟨i 0, i 1, eq_ix2 i⟩
  have hq : t.val / 8000 < 125 := by have := t.isLt; omega
  have hr : t.val % 8000 < 8000 := Nat.mod_lt _ (by norm_num)
  refine (shapeCast_apply _ shapeCasts_S125x1x8000_S1000000x1 _
    (ix3 (⟨t.val / 8000, hq⟩ : Fin 125) (0 : Fin 1) (⟨t.val % 8000, hr⟩ : Fin 8000)) ?_).trans ?_
  · rw [Shape.rowMajor_val_three, Shape.rowMajor_val_two]
    show (t.val / 8000 * 1 + 0) * 8000 + t.val % 8000 = t.val * 1 + u.val
    have := u.isLt
    omega
  · show dist _ _ _ (tileRow ⟨t.val / 8000, hq⟩ ⟨t.val % 8000, hr⟩) = dist _ _ _ t
    refine congrArg _ (Fin.ext ?_)
    show t.val / 8000 * 8000 + t.val % 8000 = t.val
    omega

/-- The kernel program's run: every weakly fair execution ends with the two results at these values and the five
    argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v40)
        = (fun _ : S_.Idx => mean256 fun g => kerTerm (dist (aX1 m c) (aX2 m c) (aW m c)) (fun t => aY m c (ix1 t))
            (shift (aW m c)) (aMk m c) g)
      ∧ r.2.mem ((c.tc : Thread nD τ).loc main_v8) = (fun i : S1000000x1.Idx => dist (aX1 m c) (aX2 m c) (aW m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v40 (Pipeline.mem_restRefs_of main_v40 (by decide) (by decide))).trans (res_coeff m c),
      ((h c).2 main_v8 (Pipeline.mem_restRefs_of main_v8 (by decide) (by decide))).trans (res_pred m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.lean ====
/-
  The kernel computes, in one pass over 125 tiles of 8000 rows, the weighted distances
      dist t = sqrt (sum_d (X1 t d - X2 t d)^2 * W d)
  and each tile's shares of six raw moments of every label (count, and sums of u, y, u*u, y*y, u*y with u = dist - c
  for the global shift c = sqrt (2 * sum W)), as a product with a 0/1 label matrix; the host adds the tiles' shares and
  forms, per label, | (suy - su*sy/n) / sqrt (max (suu - su*su/n) 0 * max (syy - sy*sy/n) 0) |, then the mean over
  the 256 labels. The reference centres the distances and the target by their group means (scatter-add, gather) and
  forms | sum xc*yc / sqrt (sum xc*xc * sum yc*yc) | per label, then the same mean.

  Under the precondition every input is a real number, every weight is positive and every label is carried by some row.
  Then the distances and the shift are real numbers, the tiles' shares add up to the group sums, and for a non-empty
  group the raw-moment form about any real shift is the centred form: covariance and variance do not change under a
  common shift, and the raw-moment variance is a sum of squares, so the clamp at 0 is the identity. The quotients and
  roots are taken of equal real arguments and are never evaluated. (Without positive weights the shift can be the
  root of a negative number, and with an empty group the two forms meet 0/0 differently: both are excluded.)
  The idealization rewrote nothing, so it is preserved trivially; the three frames are the generated ones (the
  reference's being its run with the results dropped).
-/
import proofs.«426005_j69630009803062_3_alg».proof.Defs
import proofs.«426005_j69630009803062_3_alg».proof.Proof.Gen.Kernel
import proofs.«426005_j69630009803062_3_alg».proof.Proof.Gen.Kernel.Skeleton
import proofs.«426005_j69630009803062_3_alg».proof.Proof.Gen.Kernel.Launch
import proofs.«426005_j69630009803062_3_alg».proof.Proof.Gen.Kernel.Points
import proofs.«426005_j69630009803062_3_alg».proof.Proof.Gen.Kernel.Frame
import proofs.«426005_j69630009803062_3_alg».proof.Proof.Gen.KernelIdeal
import proofs.«426005_j69630009803062_3_alg».proof.Proof.Gen.KernelIdeal.Skeleton
import proofs.«426005_j69630009803062_3_alg».proof.Proof.Gen.KernelIdeal.Launch
import proofs.«426005_j69630009803062_3_alg».proof.Proof.Gen.KernelIdeal.Points
import proofs.«426005_j69630009803062_3_alg».proof.Proof.Gen.KernelIdeal.Frame
import proofs.«426005_j69630009803062_3_alg».proof.Proof.Gen.ReferenceIdeal
import proofs.«426005_j69630009803062_3_alg».proof.Proof.Gen.Pre_finite_inputs
import proofs.«426005_j69630009803062_3_alg».proof.Proof.Gen.ReferenceIdeal.Run
import proofs.«426005_j69630009803062_3_alg».proof.Proof.Gen.ReferenceIdeal.Read
import proofs.«426005_j69630009803062_3_alg».proof.Proof.GroupCorr
import proofs.«426005_j69630009803062_3_alg».proof.Proof.Algebra
import proofs.«426005_j69630009803062_3_alg».proof.Proof.TileSums
import proofs.«426005_j69630009803062_3_alg».proof.Proof.PreRead
import proofs.«426005_j69630009803062_3_alg».proof.Proof.RefValue
import proofs.«426005_j69630009803062_3_alg».proof.Proof.KerResults
import Idealize.ShloMosaic.Adequacy
import Idealize.ShloMosaic.Init

noncomputable section

namespace Cert.Proof

open Idealize.ShloMosaic Idealize.ShloMosaic.TcCoe Idealize.SL.Sem Idealize.ShloMosaic.ValueIdx Cert.GroupCorr

/-- For real feature rows and target, positive weights and non-empty label groups, the mean of the centred form is the
    mean of the raw-moment form about the shift of the weights. -/
theorem means_eq (X1 X2 : (⟨2, ![1000000, 82]⟩ : Shape).Idx → EReal) (Y : (⟨1, ![1000000]⟩ : Shape).Idx → EReal)
    (W : (⟨2, ![1, 82]⟩ : Shape).Idx → EReal) (mk : (⟨1, ![1000000]⟩ : Shape).Idx → BitVec 32)
    (h1 : ∀ i, ∃ r : ℝ, X1 i = (r : EReal)) (h2 : ∀ i, ∃ r : ℝ, X2 i = (r : EReal)) (h3 : ∀ i, ∃ r : ℝ, Y i = (r : EReal))
    (hW : ∀ i, ∃ r : ℝ, W i = (r : EReal) ∧ 0 < r) (hne : ∀ g : Fin 256, (grp mk g).Nonempty) :
    (mean256 fun g => refTerm (dist X1 X2 W) (fun t => Y (ix1 t)) mk g)
      = mean256 fun g => kerTerm (dist X1 X2 W) (fun t => Y (ix1 t)) (shift W) mk g := by
  choose p hp using fun t => dist_real X1 X2 W h1 h2 hW t
  choose y hy using fun t : Fin 1000000 => h3 (ix1 t)
  obtain ⟨c, hc⟩ := shift_real W hW
  have eP : dist X1 X2 W = fun t => (p t : EReal) := funext hp
  have eY : (fun t => Y (ix1 t)) = fun t => (y t : EReal) := funext hy
  rw [eP, eY, hc]
  exact congrArg mean256 (funext fun g => (kerTerm_eq_refTerm p y c mk g (hne g)).symm)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments both programs end with the mean of the raw-moment form and the column of
    the distances: the kernel's run names them so, and the reference's results are the centred form's mean and the same
    column. -/
theorem algebraic : Cert.algebraic_KernelIdeal_ReferenceIdeal := by
  intro m ρ m' ρ' hpre hagree
  refine ⟨_, _, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h1, h2, h3, hW, hne⟩ := Cert.PreRead.decode _ _ _ _ _ (hpre c)
    rw [Cert.ReferenceIdeal.Read.val_main_v51_eq, Cert.ReferenceIdeal.RefValue.coeff_eq, (hagree c).1, (hagree c).2.1,
      (hagree c).2.2.1, (hagree c).2.2.2.1, (hagree c).2.2.2.2]
    funext _
    exact means_eq _ _ _ _ _ h1 h2 h3 hW hne
  · rw [Cert.ReferenceIdeal.Read.val_main_v4_eq, Cert.ReferenceIdeal.RefValue.pred_eq, (hagree c).1, (hagree c).2.1,
      (hagree c).2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
